-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S_ : Shape := ⟨0, ![]⟩
abbrev S256 : Shape := ⟨1, ![256]⟩
abbrev S256x1 : Shape := ⟨2, ![256, 1]⟩
abbrev S4x256x4096 : Shape := ⟨3, ![4, 256, 4096]⟩
abbrev S1x256x2048 : Shape := ⟨3, ![1, 256, 2048]⟩
abbrev S256x2048 : Shape := ⟨2, ![256, 2048]⟩
abbrev S2048 : Shape := ⟨1, ![2048]⟩
abbrev S1x2048 : Shape := ⟨2, ![1, 2048]⟩
abbrev S4x1x4096 : Shape := ⟨3, ![4, 1, 4096]⟩
abbrev S1x256x256 : Shape := ⟨3, ![1, 256, 256]⟩
abbrev S1x256x4096 : Shape := ⟨3, ![1, 256, 4096]⟩
abbrev S1x1x4096 : Shape := ⟨3, ![1, 1, 4096]⟩
abbrev S1x4096 : Shape := ⟨2, ![1, 4096]⟩
abbrev S256x256 : Shape := ⟨2, ![256, 256]⟩
abbrev S256x4096 : Shape := ⟨2, ![256, 4096]⟩
abbrev S4096 : Shape := ⟨1, ![4096]⟩
abbrev S4x4096 : Shape := ⟨2, ![4, 4096]⟩
abbrev S4 : Shape := ⟨1, ![4]⟩

abbrev nBuf : Space → Nat
  | .hbm => 28
  | .vmem => 16
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S256x1, .f32⟩
  | .hbm, ⟨8, _⟩ => ⟨S4x256x4096, .f32⟩
  | .hbm, ⟨9, _⟩ => ⟨S4x256x4096, .f32⟩
  | .hbm, ⟨10, _⟩ => ⟨S4x256x4096, .bf16⟩
  | .hbm, ⟨11, _⟩ => ⟨S4x256x4096, .bf16⟩
  | .hbm, ⟨12, _⟩ => ⟨S4x1x4096, .f32⟩
  | .hbm, ⟨13, _⟩ => ⟨S4x4096, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x1, .f32⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x4096, .bf16⟩
  | .local _ .vmem, ⟨12, _⟩ => ⟨S1x256x4096, .bf16⟩
  | .local _ .vmem, ⟨13, _⟩ => ⟨S1x1x4096, .f32⟩
  | .local _ .vmem, ⟨14, _⟩ => ⟨S1x1x4096, .f32⟩
  | .local _ .vmem, ⟨15, _⟩ => ⟨S1x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S256x1 : S256.ShapeCasts S256x1
  shapeCasts_S4x256x64x64_S4x256x4096 : S4x256x64x64.ShapeCasts S4x256x4096
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  reduces_S256x2048_S2048 : S256x2048.Reduces [0] S2048
  shapeCasts_S2048_S1x2048 : S2048.ShapeCasts S1x2048
  broadcasts_S1x2048_S256x2048 : S1x2048.Broadcasts S256x2048
  bitsLt_bf16_f32 : FTy.bits .bf16 < FTy.bits .f32
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  broadcasts_S256x1_S256x4096 : S256x1.Broadcasts S256x4096
  reduces_S256x4096_S4096 : S256x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S4x1x4096_S4x4096 : S4x1x4096.ShapeCasts S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S256x256_S256x4096_S256x4096_0_0_1_1_n_n_wf : DotDims.WF S256x256 S256x4096 S256x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x256x4096.size a
  hwx0_0 : ∀ i : grid0.Coords, EltTy.bits .f32 = 32 ∨ (Rect.block (s := S4x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S4x256x4096.size a
  hwx0_1 : ∀ i : grid0.Coords, EltTy.bits .f32 = 32 ∨ (Rect.block (s := S4x256x4096) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x256x4096.size a
  hwx0_3 : ∀ i : grid0.Coords, EltTy.bits .bf16 = 32 ∨ (Rect.block (s := S4x256x4096) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x256x4096.size a
  hwx0_4 : ∀ i : grid0.Coords, EltTy.bits .bf16 = 32 ∨ (Rect.block (s := S4x256x4096) S1x256x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S4x256x4096.size a
  hwx1_0 : ∀ i : grid1.Coords, EltTy.bits .bf16 = 32 ∨ (Rect.block (s := S4x256x4096) S1x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S4x256x4096.size a
  hwx1_1 : ∀ i : grid1.Coords, EltTy.bits .bf16 = 32 ∨ (Rect.block (s := S4x256x4096) S1x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096.size a ≤ S4x1x4096.size a
  hwx1_2 : ∀ i : grid1.Coords, EltTy.bits .f32 = 32 ∨ (Rect.block (s := S4x1x4096) S1x1x4096.size (cc1_transform_2 i) (hinb1_2 i)).WholeWords (EltTy.packing .f32)

variable [Facts₀]

def dot_S256x256_S256x4096_S256x4096_0_0_1_1_n_n : DotDims S256x256 S256x4096 S256x4096 where
  lhsContracting := [0]
  rhsContracting := [0]
  lhsNonContracting := [1]
  rhsNonContracting := [1]
  lhsBatch := []
  rhsBatch := []
  wf := dot_S256x256_S256x4096_S256x4096_0_0_1_1_n_n_wf

abbrev win0_0 : Pipeline.Window sig grid0 :=
  Pipeline.Window.ofSpec (Memref.whole main_v4) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x256x64x64 : Shape := ⟨4, ![4, 256, 64, 64]⟩
abbrev S_ : Shape := ⟨0, ![]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 68
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256x1x1, .f32⟩
  | .hbm, ⟨8, _⟩ => ⟨S4x256x64x64, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S_, .f32⟩
  | .hbm, ⟨14, _⟩ => ⟨S4x64x64, .f32⟩
  | .hbm, ⟨15, _⟩ => ⟨S4x1x64x64, .f32⟩
  | .hbm, ⟨16, _⟩ => ⟨S4x1x64x64, .f32⟩
  | .hbm, ⟨17, _⟩ => ⟨S4x256x64x64, .f32⟩
  | .hbm, ⟨18, _⟩ => ⟨S4x256x64x64, .f32⟩
  | .hbm, ⟨19, _⟩ => ⟨S4x256x64x64, .f32⟩
  | .hbm, ⟨20, _⟩ => ⟨S_, .f32⟩
  | .hbm, ⟨21, _⟩ => ⟨S4x64x64, .f32⟩
  | .hbm, ⟨22, _⟩ => ⟨S4x1x64x64, .f32⟩
  | .hbm, ⟨23, _⟩ => ⟨S4x1x64x64, .f32⟩
  | .hbm, ⟨24, _⟩ => ⟨S4x256x64x64, .f32⟩
  | .hbm, ⟨25, _⟩ => ⟨S4x256x64x64, .f32⟩
  | .hbm, ⟨26, _⟩ => ⟨S4x256x4096, .f32⟩
  | .hbm, ⟨27, _⟩ => ⟨S4x256x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.K.R0.lean ====
/- The normalising kernel (the first pallas_call) as one region of the program: what each of its two output
   windows holds after the body at a grid point, as a function of the three input blocks; the body's triple;
   the pipeline's proof data at the contents `V` the region is entered with; and the body obligation at every point.
   The body reads a block of x, the same block of y and the column of channel means, and stores
   (x - mean) / sqrt(sum over channels of (x - mean)^2) and the same of y, each into its own output block. -/
import proofs.«138638_j39960375722309_1_alg».proof.Proof.Gen.Kernel.Launch
import proofs.«138638_j39960375722309_1_alg».proof.Proof.Gen.Kernel.Skeleton
import proofs.«138638_j39960375722309_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  -- the window is an uncut input with no idle point, and the body leaves its block in place: what the buffer holds is
  -- what a fetch at the point would put there, and that is the block read off the array
  have hheld := dat.before_in_eq_fetched 0 rfl (fun _ => rfl) (fun _ _ _ => rfl)
    (fun t => by rw [hafter]; unfold Dat.blockOf iblk0; rw [hA]; try rfl) t d
  refine hheld.trans ?_
  unfold Dat.fetched Dat.blockOf iblk0; rw [hA]; try rfl
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  -- the window is an uncut input with no idle point, and the body leaves its block in place: what the buffer holds is
  -- what a fetch at the point would put there, and that is the block read off the array
  have hheld := dat.before_in_eq_fetched 1 rfl (fun _ => rfl) (fun _ _ _ => rfl)
    (fun t => by rw [hafter]; unfold Dat.blockOf iblk0; rw [hA]; try rfl) t d
  refine hheld.trans ?_
  unfold Dat.fetched Dat.blockOf iblk0; rw [hA]; try rfl
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  -- the channel means: the block is the whole array at every point, fetched at the first point only; the body leaves it
  -- in place and the block index never moves, so at every later point the buffer still holds what a fetch there would
  -- put in it, and that is the block read off the array
  have hheld := dat.before_in_eq_fetched 2 rfl (fun _ => rfl) (fun _ _ _ => rfl)
    (fun t => by rw [hafter]; unfold Dat.blockOf iblk0; rw [hA]; try rfl) t d
  refine hheld.trans ?_
  unfold Dat.fetched Dat.blockOf iblk0; rw [hA]; try rfl

/-! ## The body's accesses and what it leaves -/

abbrev r0_blk : Rect S1x256x2048 := Rect.unit (s := S1x256x2048) ![0, 0, 0] S1x256x2048.size inb_S1x256x2048_S1x256x2048_0_0_0
abbrev r0_mu : Rect S256x1 := Rect.unit (s := S256x1) ![0, 0] S256x1.size inb_S256x1_S256x1_0_0

/-- The first output's staging buffer after the body: its one store, of the normalised x block. -/
def out0_3 (x0 : Vec F S1x256x2048 .f32) (x2 : Vec F S256x1 .f32) : Vec F S1x256x2048 .bf16 :=
  View.canon [⟨r0_blk, k0_pay2 (View.ld x0 r0_blk) (View.ld x2 r0_mu)⟩]
/-- The second output's staging buffer after the body: its one store, of the normalised y block. -/
def out0_4 (x1 : Vec F S1x256x2048 .f32) (x2 : Vec F S256x1 .f32) : Vec F S1x256x2048 .bf16 :=
  View.canon [⟨r0_blk, k0_pay3 (View.ld x1 r0_blk) (View.ld x2 r0_mu)⟩]

/-- The one store into an output's buffer is of the whole block, so it covers the buffer. -/
private theorem whole_store_covers (p : Vec F S1x256x2048 .bf16) (y : S1x256x2048.Idx) :
    ∃ pc ∈ ([⟨r0_blk, p⟩] : List (View.Piece (Elt F) S1x256x2048 .bf16)), y ∈ pc.1.set :=
  View.cover_of_tiled [⟨r0_blk, p⟩] S1x256x2048.size (by rfl) y

set_option maxHeartbeats 1000000 in
/-- The body on whole staging memrefs: the inputs' kept, each output's at its store. -/
theorem sound_kernel0 (c : Dev nD) (E : Set ℕ) (i : grid0.Coords)
    (arg2 : Memref sig .tc .vmem S1x256x2048 .f32) (harg2 : arg2.IsWhole) (arg3 : Memref sig .tc .vmem S1x256x2048 .f32) (harg3 : arg3.IsWhole)
    (arg4 : Memref sig .tc .vmem S256x1 .f32) (harg4 : arg4.IsWhole)
    (arg5 : Memref sig .tc .vmem S1x256x2048 .bf16) (harg5 : arg5.IsWhole) (arg6 : Memref sig .tc .vmem S1x256x2048 .bf16) (harg6 : arg6.IsWhole)
    (x0 : Vec F S1x256x2048 .f32) (x1 : Vec F S1x256x2048 .f32) (x2 : Vec F S256x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x2) ∗ owns (c : Thread nD τ) arg6 fullShare (out0_4 x1 x2)) -∗ K ⟨⟩))
      ⊢ wp frame (wpE (defs₀ (F := F)) Variants.none c none) E (cc0__normalize_kernel i arg2 harg2 arg3 harg3 arg4 harg4 arg5 harg5 arg6 harg6) K := by
  simp only [cc0__normalize_kernel_eq_skeleton]; unfold cc0__normalize_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  -- the three input buffers are as they were found
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- each output buffer, over whatever it held, reads as its one covering store
  isplitl [H3]
  · iexists _; isplitr
    swap; · iexact H3
    ipureintro
    exact View.read_writes_eq_canon _ _ _ (whole_store_covers _)
  iexists _; isplitr
  swap; · iexact H4
  ipureintro
  exact View.read_writes_eq_canon _ _ _ (whole_store_covers _)

/-! ## The pipeline's proof data -/

/-- The proof data of the first pipeline on core `c`: the arrays as the region finds them; after the body each input's
    buffer at its block and each output's at its store of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 2 t)
    | ⟨4, _⟩ => out0_4 (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 2 t) := by dsimp only [dat0]
theorem after0_4 (c : Dev nD) (t : Fin cfg0.N) : (dat0 V c).after 4 t = out0_4 (iblk0 V c 1 t) (iblk0 V c 2 t) := by dsimp only [dat0]

/-- Each input's current staging buffer holds its block at every point of the proof data. -/
private theorem held0_0 (c : Dev nD) (t : Fin cfg0.N) (d) : (dat0 V c).before 0 t d = iblk0 V c 0 t :=
  before0_0_of V (dat0 V c) (A_eq0 V c 0) (after0_0 V c) t d
private theorem held0_1 (c : Dev nD) (t : Fin cfg0.N) (d) : (dat0 V c).before 1 t d = iblk0 V c 1 t :=
  before0_1_of V (dat0 V c) (A_eq0 V c 1) (after0_1 V c) t d
private theorem held0_2 (c : Dev nD) (t : Fin cfg0.N) (d) : (dat0 V c).before 2 t d = iblk0 V c 2 t :=
  before0_2_of V (dat0 V c) (A_eq0 V c 2) (after0_2 V c) t d

/-- What the body is called with at point `t`, the five windows one by one, -/
private def bodyGiven0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
private def bodyLeft0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core owes pass through unread. -/
private theorem body_at0 (c : Dev nD) (t : Fin cfg0.N) :
    bodyGiven0 V c t ⊢ wp frame (wpE (defs₀ (F := F)) Variants.none c none) Set.univ (bodyAt0 t) (fun _ => bodyLeft0 V c t) := by
  unfold bodyGiven0 bodyLeft0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact body_at0 V c t

end Cert.Kernel.Hand

end
-- ==== Proof.K.R1.lean ====
/- The contextual-loss kernel (the second pallas_call) as one region of the program. Its grid is (batch n, row tile p);
   the body keeps in a scratch row the running maximum, over the row tiles met so far for this batch, of the
   column-wise maxima of the normalised affinities: at the first row tile it resets the scratch to zero, then at every
   tile it takes the maximum of the scratch with this tile's column maxima, stores that back into the scratch and
   copies the scratch into the output block. Stated here: what the scratch holds after each point (a recursion on the
   point), the region's invariant carrying it, the body's triple in its two cases, the proof data and the body
   obligation at every point. -/
import proofs.«138638_j39960375722309_1_alg».proof.Proof.Gen.Kernel.Launch
import proofs.«138638_j39960375722309_1_alg».proof.Proof.Gen.Kernel.Skeleton
import proofs.«138638_j39960375722309_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  -- an input window, never idle and uncut, whose body leaves the block in place: unfetched, its block index has not moved
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  -- the same for the window fetched at a batch's first row tile only: between fetches its block index (the batch) stands
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch on the row tile -/

/-- The body's one `scf.if`: the row-tile coordinate is zero. -/
abbrev cond1 (i : grid1.Coords) : Prop := (Scalar.cmpi .ne (Scalar.extui (Scalar.cmpi .eq (BitVec.ofNat 32 (i 1).val) 0#32)) 0#32) = 1#1
/-- It holds at the points that are multiples of 16 (the first row tile of each batch). -/
theorem hcond1 : ∀ t : Fin cfg1.N, cond1 (grid1.coords t) ↔ t.val % 16 = 0 :=
  -- decided point by point over the 64 points of the grid
  (by decide +kernel : ∀ t : Fin grid1.N, cond1 (grid1.coords t) ↔ t.val % 16 = 0)

/-! ## The scratch: the memref, and what it holds after each point -/

/-- The scratch operand: a whole scoped buffer of the kernel's own. -/
abbrev scM1 : Memref sig .tc .vmem S1x4096 .f32 := Memref.whole cc1_scratch0

/-- What the scratch holds after the body at position `n`: at a first row tile the maximum of zero with the tile's
    column maxima; elsewhere the maximum of what the point before left with the tile's column maxima. -/
def acc1 (c : Dev nD) : (n : ℕ) → n < cfg1.N → Vec F S1x4096 .f32
  | 0, hn => k1_pay3 (iblk1 V c 0 ⟨0, hn⟩) (iblk1 V c 1 ⟨0, hn⟩) (k1_pay2 (F := F))
  | n + 1, hn =>
    if (n + 1) % 16 = 0 then k1_pay3 (iblk1 V c 0 ⟨n + 1, hn⟩) (iblk1 V c 1 ⟨n + 1, hn⟩) (k1_pay2 (F := F))
    else k1_pay3 (iblk1 V c 0 ⟨n + 1, hn⟩) (iblk1 V c 1 ⟨n + 1, hn⟩) (acc1 c n (Nat.lt_of_succ_lt hn))

/-- At a first row tile. -/
theorem acc1_reset (c : Dev nD) (t : Fin cfg1.N) (h : t.val % 16 = 0) :
    acc1 V c t.val t.isLt = k1_pay3 (iblk1 V c 0 t) (iblk1 V c 1 t) (k1_pay2 (F := F)) := by
  -- the recursion unfolded once: at position 0 its first equation, at a successor the branch of the test taken
  obtain ⟨n, hn⟩ := t
  cases n with
  | zero => exact rfl
  | succ n => exact (if_pos h).trans rfl
/-- At a later row tile. -/
theorem acc1_step (c : Dev nD) (t : Fin cfg1.N) (h : ¬ t.val % 16 = 0) :
    acc1 V c t.val t.isLt = k1_pay3 (iblk1 V c 0 t) (iblk1 V c 1 t) (acc1 V c (t.val - 1) (Nat.lt_of_le_of_lt (Nat.sub_le _ _) t.isLt)) := by
  -- position 0 is a multiple of 16, so the point is a successor, and there the test fails
  obtain ⟨n, hn⟩ := t
  cases n with
  | zero => exact (by exfalso; (try dsimp only at h); exact absurd (Nat.zero_mod _) h)
  | succ n => exact (if_neg h).trans rfl

/-! ## The body's triple, case by case -/

/-- Zero offsets, however they are spelt. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of the whole buffer, after stores of which the LAST filled it whole, reads that store's payload, whatever
    the earlier stores were. -/
private theorem readCov_cons_unit_zero {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

set_option maxHeartbeats 4000000 in
/-- At a first row tile: the scratch, at anything, is reset and ends at the maximum of zero with the tile's column
    maxima; the output block at that, reshaped. -/
theorem sound_kernel1_reset (c : Dev nD) (E : Set ℕ) (i : grid1.Coords) (hc : cond1 i)
    (arg2 : Memref sig .tc .vmem S1x256x256 .bf16) (harg2 : arg2.IsWhole) (arg3 : Memref sig .tc .vmem S1x256x4096 .bf16) (harg3 : arg3.IsWhole)
    (arg4 : Memref sig .tc .vmem S1x1x4096 .f32) (harg4 : arg4.IsWhole) (arg5 : Memref sig .tc .vmem S1x4096 .f32) (harg5 : arg5.IsWhole)
    (x0 : Vec F S1x256x256 .bf16) (x1 : Vec F S1x256x4096 .bf16) (K : PUnit → sProp 𝕄) :
    iprop(owns (c : Thread nD τ) arg2 fullShare x0 ∗ owns (c : Thread nD τ) arg3 fullShare x1
        ∗ (∃ d, owns (c : Thread nD τ) arg4 fullShare d) ∗ (∃ s, owns (c : Thread nD τ) arg5 fullShare s)
        ∗ (iprop(owns (c : Thread nD τ) arg2 fullShare x0 ∗ owns (c : Thread nD τ) arg3 fullShare x1
            ∗ owns (c : Thread nD τ) arg4 fullShare (k1_pay1 (k1_pay3 x0 x1 (k1_pay2 (F := F))))
            ∗ owns (c : Thread nD τ) arg5 fullShare (k1_pay3 x0 x1 (k1_pay2 (F := F)))) -∗ K ⟨⟩))
      ⊢ wp frame (wpE (defs₀ (F := F)) Variants.none c none) E (cc1__context_kernel i arg2 harg2 arg3 harg3 arg4 harg4 arg5 harg5) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%d2, %f2, -, H2⟩, ⟨%s, %fs, -, HS⟩, Hk⟩
  obtain rfl := harg2.eq_unread hf0; obtain rfl := harg3.eq_unread hf1
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    -- the block's one store fills it; its payload reshapes what the scratch's last load read: the update just stored,
    -- itself over what the load after the reset read, the zero row
    sl_unfold_words
    refine (View.read_writes_eq_canon _ _ _ ?_).trans ?_
    · intro y; exact ⟨_, List.Mem.head _, View.mem_set_unit_zero (S := S1x1x4096) hz3 inb_S1x1x4096_S1x1x4096_0_0_0 y⟩
    rw [View.canon_unit_zero (S := S1x1x4096) hz3]
    rw [readCov_cons_unit_zero (S := S1x4096) _ hz2, View.readCov_unit_zero (S := S1x4096) _ hz2]
    simp only [View.readAt_eq_ld, harg2.read_unread, harg3.read_unread, View.ld_unit_zero (S := S1x256x256) hz3,
      View.ld_unit_zero (S := S1x256x4096) hz3]
  iexists _; isplitr
  swap; · iexact HS
  ipureintro
  -- the scratch's two stores each fill it: the later one, the update over the zero row read back, is what it holds
  sl_unfold_words
  refine (View.read_writes_eq_canon _ _ _ ?_).trans ?_
  · intro y; exact ⟨_, List.Mem.head _, View.mem_set_unit_zero (S := S1x4096) hz2 inb_S1x4096_S1x4096_0_0 y⟩
  rw [View.canon_cons_unit_zero (S := S1x4096) hz2, View.readCov_unit_zero (S := S1x4096) _ hz2]
  simp only [View.readAt_eq_ld, harg2.read_unread, harg3.read_unread, View.ld_unit_zero (S := S1x256x256) hz3,
    View.ld_unit_zero (S := S1x256x4096) hz3]

set_option maxHeartbeats 4000000 in
/-- At a later row tile: the scratch, at what the point before left, ends at its maximum with the tile's column
    maxima; the output block at that, reshaped. -/
theorem sound_kernel1_step (c : Dev nD) (E : Set ℕ) (i : grid1.Coords) (hc : ¬ cond1 i)
    (arg2 : Memref sig .tc .vmem S1x256x256 .bf16) (harg2 : arg2.IsWhole) (arg3 : Memref sig .tc .vmem S1x256x4096 .bf16) (harg3 : arg3.IsWhole)
    (arg4 : Memref sig .tc .vmem S1x1x4096 .f32) (harg4 : arg4.IsWhole) (arg5 : Memref sig .tc .vmem S1x4096 .f32) (harg5 : arg5.IsWhole)
    (x0 : Vec F S1x256x256 .bf16) (x1 : Vec F S1x256x4096 .bf16) (s : Vec F S1x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay1 (k1_pay3 x0 x1 s))
            ∗ owns (c : Thread nD τ) arg5 fullShare (k1_pay3 x0 x1 s)) -∗ K ⟨⟩))
      ⊢ wp frame (wpE (defs₀ (F := F)) Variants.none c none) E (cc1__context_kernel i arg2 harg2 arg3 harg3 arg4 harg4 arg5 harg5) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    -- the block's one store fills it; its payload reshapes what the scratch's last load read: the update just stored
    sl_unfold_words
    refine (View.read_writes_eq_canon _ _ _ ?_).trans ?_
    · intro y; exact ⟨_, List.Mem.head _, View.mem_set_unit_zero (S := S1x1x4096) hz3 inb_S1x1x4096_S1x1x4096_0_0_0 y⟩
    rw [View.canon_unit_zero (S := S1x1x4096) hz3]
    rw [View.readCov_unit_zero (S := S1x4096) _ hz2]
    simp only [View.readAt_eq_ld, harg2.read_unread, harg3.read_unread, harg5.read_unread, View.ld_unit_zero (S := S1x256x256) hz3,
      View.ld_unit_zero (S := S1x256x4096) hz3, View.ld_unit_zero (S := S1x4096) hz2]
  iexists _; isplitr
  swap; · iexact HS
  ipureintro
  -- the scratch's one store fills it: the update over what the scratch held, read whole
  sl_unfold_words
  refine (View.read_writes_eq_canon _ _ _ ?_).trans ?_
  · intro y; exact ⟨_, List.Mem.head _, View.mem_set_unit_zero (S := S1x4096) hz2 inb_S1x4096_S1x4096_0_0 y⟩
  rw [View.canon_unit_zero (S := S1x4096) hz2]
  simp only [View.readAt_eq_ld, harg2.read_unread, harg3.read_unread, harg5.read_unread, View.ld_unit_zero (S := S1x256x256) hz3,
    View.ld_unit_zero (S := S1x256x4096) hz3, View.ld_unit_zero (S := S1x4096) hz2]

/-! ## The region's invariant -/

/-- The core's scoped buffers that are no staging buffer of this pipeline and not the scratch (the first pipeline's nine
    staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- A chain of ten conjuncts beside an eleventh, rebracketed: the first nine together, then the tenth, then the eleventh. -/
private theorem sep_last_out {M : Type} [URA M] (A0 A1 A2 A3 A4 A5 A6 A7 A8 S G : sProp M) :
    iprop((A0 ∗ A1 ∗ A2 ∗ A3 ∗ A4 ∗ A5 ∗ A6 ∗ A7 ∗ A8 ∗ S) ∗ G) = iprop(((A0 ∗ A1 ∗ A2 ∗ A3 ∗ A4 ∗ A5 ∗ A6 ∗ A7 ∗ A8) ∗ S) ∗ G) :=
  BI.Entails.antisymm
    (show iprop((A0 ∗ A1 ∗ A2 ∗ A3 ∗ A4 ∗ A5 ∗ A6 ∗ A7 ∗ A8 ∗ S) ∗ G) ⊢ iprop(((A0 ∗ A1 ∗ A2 ∗ A3 ∗ A4 ∗ A5 ∗ A6 ∗ A7 ∗ A8) ∗ S) ∗ G) from by
      iintro ⟨⟨H0, H1, H2, H3, H4, H5, H6, H7, H8, HS⟩, Hg⟩
      isplitr [Hg]
      · isplitr [HS]
        · isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        iexact HS
      iexact Hg)
    (show iprop(((A0 ∗ A1 ∗ A2 ∗ A3 ∗ A4 ∗ A5 ∗ A6 ∗ A7 ∗ A8) ∗ S) ∗ G) ⊢ iprop((A0 ∗ A1 ∗ A2 ∗ A3 ∗ A4 ∗ A5 ∗ A6 ∗ A7 ∗ A8 ∗ S) ∗ G) from by
      iintro ⟨⟨⟨H0, H1, H2, H3, H4, H5, H6, H7, H8⟩, HS⟩, Hg⟩
      isplitr [Hg]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact HS
      iexact Hg)

/-- The class's invariant with the scratch split out, owned as a memref at some contents. -/
theorem PhiA1_eq (c : Dev nD) :
    (Pipeline.ΦA spec1 c : sProp 𝕄)
      = iprop(iprop(others1 (F := F) c ∗ (∃ d, owns (c : Thread nD τ) scM1 fullShare d)) ∗ (∃ r, prngReg c r)) := by
  -- the scoped rest is its ten buffers one by one, the scratch the last; a whole buffer owned as a memref is its points-to;
  -- what is left is the chain's bracketing, an entailment each way
  unfold Pipeline.ΦA others1; rw [scopedRest1_eq]; simp only [scM1, owns_whole]
  exact sep_last_out _ _ _ _ _ _ _ _ _ _ _

/-- The region invariant before position `n`: before the first point the class's (the scratch at anything); afterwards
    the scratch at what the point before left, the other scoped buffers at anything, the generator register at some state. -/
def PhiS (c : Dev nD) : (n : ℕ) → n ≤ cfg1.N → sProp 𝕄
  | 0, _ => Pipeline.ΦA spec1 c
  | n + 1, hn => iprop(iprop(others1 (F := F) c ∗ owns (c : Thread nD τ) scM1 fullShare (acc1 V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(others1 (F := F) c ∗ owns (c : Thread nD τ) scM1 fullShare (acc1 V c n hn)) ∗ (∃ r, prngReg c r)) := rfl
theorem PhiS_pos (c : Dev nD) (n : ℕ) (h : n ≤ cfg1.N) (hz : n ≠ 0) :
    PhiS V c n h = iprop(iprop(others1 (F := F) c ∗ owns (c : Thread nD τ) scM1 fullShare (acc1 V c (n - 1) (by omega))) ∗ (∃ r, prngReg c r)) := by
  cases n with
  | zero => exact absurd rfl hz
  | succ n => rfl

/-! ## The pipeline's proof data -/

/-- The proof data of the second pipeline on core `c`: the arrays as the region finds them; after the body each input's
    buffer at its block and the output's at the scratch's contents reshaped; the invariant carrying the scratch;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (acc1 V c t.val t.isLt) := by dsimp only [dat1]

/-- Each input's current staging buffer holds its block at every point, fetched there or not. -/
private theorem before1_0 (c : Dev nD) (t : Fin cfg1.N) (d) : (dat1 V c).before 0 t d = iblk1 V c 0 t :=
  before1_0_of V (dat1 V c) (A_eq1 V c 0) (after1_0 V c) t d
private theorem before1_1 (c : Dev nD) (t : Fin cfg1.N) (d) : (dat1 V c).before 1 t d = iblk1 V c 1 t :=
  before1_1_of V (dat1 V c) (A_eq1 V c 1) (after1_1 V c) t d

/-- The invariant at a point's start, restated at the point's position. -/
private theorem PhiS_castSucc (c : Dev nD) (t : Fin cfg1.N) :
    (dat1 V c).Φ t.castSucc = PhiS V c t.val (Nat.le_of_lt t.isLt) := by
  dsimp only [dat1]; simp only [Fin.coe_castSucc]

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: no window is idle anywhere, so each buffer at what the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point. The inputs' buffers hold their blocks; the output's buffer holds something. At a first row
    tile the branch is taken: the scratch comes at some contents (from the class's invariant at the very first point,
    from the point before's otherwise), is reset, and ends at the recursion's value there. At a later row tile the branch
    is not taken: the scratch comes at what the point before left, and ends at the recursion's value. The other scoped
    buffers, the generator register and what the core owes pass through untouched. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [after1_0, after1_1, after1_2, PhiS_castSucc]
  by_cases h0 : t.val % 16 = 0
  · rw [acc1_reset V c t h0]
    by_cases hz : t.val = 0
    · rw [PhiS_zero V c _ _ hz, PhiA1_eq]
      iintro ⟨⟨⟨Hr, HS⟩, Hg⟩, Ho, ⟨%d0, H0⟩, ⟨%d1, H1⟩, ⟨%d2, H2⟩⟩
      iapply (sound_kernel1_reset c Set.univ (grid1.coords t) ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexact H2
    · rw [PhiS_pos V c _ _ hz]
      iintro ⟨⟨⟨Hr, HS⟩, Hg⟩, Ho, ⟨%d0, H0⟩, ⟨%d1, H1⟩, ⟨%d2, H2⟩⟩
      iapply (sound_kernel1_reset c Set.univ (grid1.coords t) ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexact H2
  · have hz : t.val ≠ 0 := fun e => h0 (by rw [e])
    rw [acc1_step V c t h0, PhiS_pos V c _ _ hz]
    iintro ⟨⟨⟨Hr, HS⟩, Hg⟩, Ho, ⟨%d0, H0⟩, ⟨%d1, H1⟩, ⟨%d2, H2⟩⟩
    iapply (sound_kernel1_step c Set.univ (grid1.coords t) (fun h => h0 ((hcond1 t).mp h)) _ _ _ _ _ _ _ _ (iblk1 V c 0 t) (iblk1 V c 1 t)
      (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [Hr HS Hg]
    · isplitl [Hr HS]
      · isplitl [Hr]; · iexact Hr
        iexact HS
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _
/-- After the last point the invariant gives the class's back: the scratch's named contents are forgotten. -/
theorem hout1 (c : Dev nD) : (dat1 V c).Φ (Fin.last cfg1.N) ⊢ Pipeline.ΦA spec1 c := by
  -- the last position is not the first (the grid has 64 points): the scratch is owned at the last point's contents, so at some
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro ⟨⟨Ho, HS⟩, Hg⟩
  isplitl [Ho HS]
  · isplitl [Ho]; · iexact Ho
    iexists _; iexact HS
  iexact Hg

end Cert.Kernel.Hand

end
-- ==== Proof.K.Run.lean ====
/- The program's run as a whole: @main is a stretch of host operations (the channel means of y and two reshapes), the
   normalising region, the contextual-loss region, and a closing stretch of host operations (the means and the
   logarithm). Stated here: what every unscoped buffer of a core holds at each boundary between these four items, as a
   fold from the launch memory (a host stretch applies its operations; a region leaves its windows' arrays at what its
   write-backs fold to and everything else as it was); that the two argument arrays come through unchanged; the proof
   data of both pipelines, each at its region's entry contents; each region as a segment between the thread states
   "every unscoped buffer at the boundary's contents, the generator register at some state, nothing owed"; and the
   run: every weakly fair execution of @main terminates, and in every final state every unscoped buffer holds the last
   boundary's contents. -/
import proofs.«138638_j39960375722309_1_alg».proof.Proof.K.R0
import proofs.«138638_j39960375722309_1_alg».proof.Proof.K.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the opening host stretch (the first region's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references (the second region's entry: no host operation stands between the regions). -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At the second region's exit: its arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the closing host stretch: the program's end. -/
abbrev B4 : Dev nD → Valuation τ sig (Elt F) := fun c => StableHlo.after hostOps2 (B3 m ρ c)

/-! ## The arguments end as launched: no host operation writes one and no region has one among its arrays -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E2 m ρ) c
abbrev 𝒱' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The normalising region: entered from every unscoped buffer at the first boundary's contents, left at the second's. -/
def reg0 : Pipeline.RegionSeg (pcfgs (F := F)) adm' (pdats m ρ) () defs₀ 𝒱' L' lv' 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L' lv' 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The contextual-loss region: entered from every unscoped buffer at the second boundary's contents, left at the third's.
    Its invariant carries the scratch; it is entered from the class's invariant and gives it back at the end. -/
def reg1 : Pipeline.RegionSeg (pcfgs (F := F)) adm' (pdats m ρ) () defs₀ 𝒱' L' lv' 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L' lv' 1 fun _ _ => rfl
  pre c := iprop(StableHlo.held (c : Thread nD τ) (Pipeline.ucRefs τ sig) (B2 m ρ c) ∗ Rd c)
  post c := iprop(StableHlo.held (c : Thread nD τ) (Pipeline.ucRefs τ sig) (B3 m ρ c) ∗ Rd c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E2 m ρ) c)
    unfold Pipeline.ΦA
    iintro ⟨Hp, -, Hr⟩
    isplitl [Hr]; · iexact Hr
    iexact Hp
  hout c := by
    rw [Pipeline.ownSems0_none]
    refine (hout1 (E2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four segments in order. -/
abbrev segs' : List (Pipeline.Seg (pcfgs (F := F)) adm' (pdats m ρ) () defs₀ 𝒱' L' lv') :=
  [ .host (hseg hostOps0 hostOps0_sub hostOps0_fresh' (B0 m ρ)),
    .region (reg0 m ρ),
    .region (reg1 m ρ),
    .host (hseg hostOps2 hostOps2_sub hostOps2_fresh' (B3 m ρ)) ]
/-- @main is the run of the segments. -/
theorem main_run (c : Dev nD) : main (F := F) c = Pipeline.Seg.run (segs' m ρ) := (main_chain c).trans (by chain_rfl)

set_option backward.isDefEq.respectTransparency.types false in
/-- THE RUN: from any memory with zero counters, every weakly fair execution of @main on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm' (pdats m ρ) () cellOf_inj emb₁ defs₀ 𝒱' L' lv' m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tend m ρ)
    (hch := ⟨fun _ => .rfl, fun _ => .rfl, fun _ => .rfl, fun _ => .rfl, fun c => by
      show (iprop(StableHlo.held (c : Thread nD τ) (Pipeline.ucRefs τ sig) (B4 m ρ c) ∗ Rd c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

end Cert.Kernel.Hand

end
-- ==== Proof.KI.R0.lean ====
/- The normalising kernel (the first pallas_call) as one region of the program: what each of its two output
   windows holds after the body at a grid point, as a function of the three input blocks; the body's triple;
   the pipeline's proof data at the contents `V` the region is entered with; and the body obligation at every point.
   The body reads a block of x, the same block of y and the column of channel means, and stores
   (x - mean) / sqrt(sum over channels of (x - mean)^2) and the same of y, each into its own output block. -/
import proofs.«138638_j39960375722309_1_alg».proof.Proof.Gen.KernelIdeal.Launch
import proofs.«138638_j39960375722309_1_alg».proof.Proof.Gen.KernelIdeal.Skeleton
import proofs.«138638_j39960375722309_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  -- the window is an uncut input with no idle point, and the body leaves its block in place: what the buffer holds is
  -- what a fetch at the point would put there, and that is the block read off the array
  have hheld := dat.before_in_eq_fetched 0 rfl (fun _ => rfl) (fun _ _ _ => rfl)
    (fun t => by rw [hafter]; unfold Dat.blockOf iblk0; rw [hA]; try rfl) t d
  refine hheld.trans ?_
  unfold Dat.fetched Dat.blockOf iblk0; rw [hA]; try rfl
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  -- the window is an uncut input with no idle point, and the body leaves its block in place: what the buffer holds is
  -- what a fetch at the point would put there, and that is the block read off the array
  have hheld := dat.before_in_eq_fetched 1 rfl (fun _ => rfl) (fun _ _ _ => rfl)
    (fun t => by rw [hafter]; unfold Dat.blockOf iblk0; rw [hA]; try rfl) t d
  refine hheld.trans ?_
  unfold Dat.fetched Dat.blockOf iblk0; rw [hA]; try rfl
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  -- the channel means: the block is the whole array at every point, fetched at the first point only; the body leaves it
  -- in place and the block index never moves, so at every later point the buffer still holds what a fetch there would
  -- put in it, and that is the block read off the array
  have hheld := dat.before_in_eq_fetched 2 rfl (fun _ => rfl) (fun _ _ _ => rfl)
    (fun t => by rw [hafter]; unfold Dat.blockOf iblk0; rw [hA]; try rfl) t d
  refine hheld.trans ?_
  unfold Dat.fetched Dat.blockOf iblk0; rw [hA]; try rfl

/-! ## The body's accesses and what it leaves -/

abbrev r0_blk : Rect S1x256x2048 := Rect.unit (s := S1x256x2048) ![0, 0, 0] S1x256x2048.size inb_S1x256x2048_S1x256x2048_0_0_0
abbrev r0_mu : Rect S256x1 := Rect.unit (s := S256x1) ![0, 0] S256x1.size inb_S256x1_S256x1_0_0

/-- The first output's staging buffer after the body: its one store, of the normalised x block. -/
def out0_3 (x0 : Vec F S1x256x2048 .f32) (x2 : Vec F S256x1 .f32) : Vec F S1x256x2048 .bf16 :=
  View.canon [⟨r0_blk, k0_pay2 (View.ld x0 r0_blk) (View.ld x2 r0_mu)⟩]
/-- The second output's staging buffer after the body: its one store, of the normalised y block. -/
def out0_4 (x1 : Vec F S1x256x2048 .f32) (x2 : Vec F S256x1 .f32) : Vec F S1x256x2048 .bf16 :=
  View.canon [⟨r0_blk, k0_pay3 (View.ld x1 r0_blk) (View.ld x2 r0_mu)⟩]

/-- The one store into an output's buffer is of the whole block, so it covers the buffer. -/
private theorem whole_store_covers (p : Vec F S1x256x2048 .bf16) (y : S1x256x2048.Idx) :
    ∃ pc ∈ ([⟨r0_blk, p⟩] : List (View.Piece (Elt F) S1x256x2048 .bf16)), y ∈ pc.1.set :=
  View.cover_of_tiled [⟨r0_blk, p⟩] S1x256x2048.size (by rfl) y

set_option maxHeartbeats 1000000 in
/-- The body on whole staging memrefs: the inputs' kept, each output's at its store. -/
theorem sound_kernel0 (c : Dev nD) (E : Set ℕ) (i : grid0.Coords)
    (arg2 : Memref sig .tc .vmem S1x256x2048 .f32) (harg2 : arg2.IsWhole) (arg3 : Memref sig .tc .vmem S1x256x2048 .f32) (harg3 : arg3.IsWhole)
    (arg4 : Memref sig .tc .vmem S256x1 .f32) (harg4 : arg4.IsWhole)
    (arg5 : Memref sig .tc .vmem S1x256x2048 .bf16) (harg5 : arg5.IsWhole) (arg6 : Memref sig .tc .vmem S1x256x2048 .bf16) (harg6 : arg6.IsWhole)
    (x0 : Vec F S1x256x2048 .f32) (x1 : Vec F S1x256x2048 .f32) (x2 : Vec F S256x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x2) ∗ owns (c : Thread nD τ) arg6 fullShare (out0_4 x1 x2)) -∗ K ⟨⟩))
      ⊢ wp frame (wpE (defs₀ (F := F)) Variants.none c none) E (cc0__normalize_kernel i arg2 harg2 arg3 harg3 arg4 harg4 arg5 harg5 arg6 harg6) K := by
  simp only [cc0__normalize_kernel_eq_skeleton]; unfold cc0__normalize_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  -- the three input buffers are as they were found
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- each output buffer, over whatever it held, reads as its one covering store
  isplitl [H3]
  · iexists _; isplitr
    swap; · iexact H3
    ipureintro
    exact View.read_writes_eq_canon _ _ _ (whole_store_covers _)
  iexists _; isplitr
  swap; · iexact H4
  ipureintro
  exact View.read_writes_eq_canon _ _ _ (whole_store_covers _)

/-! ## The pipeline's proof data -/

/-- The proof data of the first pipeline on core `c`: the arrays as the region finds them; after the body each input's
    buffer at its block and each output's at its store of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 2 t)
    | ⟨4, _⟩ => out0_4 (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 2 t) := by dsimp only [dat0]
theorem after0_4 (c : Dev nD) (t : Fin cfg0.N) : (dat0 V c).after 4 t = out0_4 (iblk0 V c 1 t) (iblk0 V c 2 t) := by dsimp only [dat0]

/-- Each input's current staging buffer holds its block at every point of the proof data. -/
private theorem held0_0 (c : Dev nD) (t : Fin cfg0.N) (d) : (dat0 V c).before 0 t d = iblk0 V c 0 t :=
  before0_0_of V (dat0 V c) (A_eq0 V c 0) (after0_0 V c) t d
private theorem held0_1 (c : Dev nD) (t : Fin cfg0.N) (d) : (dat0 V c).before 1 t d = iblk0 V c 1 t :=
  before0_1_of V (dat0 V c) (A_eq0 V c 1) (after0_1 V c) t d
private theorem held0_2 (c : Dev nD) (t : Fin cfg0.N) (d) : (dat0 V c).before 2 t d = iblk0 V c 2 t :=
  before0_2_of V (dat0 V c) (A_eq0 V c 2) (after0_2 V c) t d

/-- What the body is called with at point `t`, the five windows one by one, -/
private def bodyGiven0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
private def bodyLeft0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what the core owes pass through unread. -/
private theorem body_at0 (c : Dev nD) (t : Fin cfg0.N) :
    bodyGiven0 V c t ⊢ wp frame (wpE (defs₀ (F := F)) Variants.none c none) Set.univ (bodyAt0 t) (fun _ => bodyLeft0 V c t) := by
  unfold bodyGiven0 bodyLeft0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact body_at0 V c t

end Cert.KernelIdeal.Hand

end
-- ==== Proof.KI.R1.lean ====
/- The contextual-loss kernel (the second pallas_call) as one region of the program. Its grid is (batch n, row tile p);
   the body keeps in a scratch row the running maximum, over the row tiles met so far for this batch, of the
   column-wise maxima of the normalised affinities: at the first row tile it resets the scratch to zero, then at every
   tile it takes the maximum of the scratch with this tile's column maxima, stores that back into the scratch and
   copies the scratch into the output block. Stated here: what the scratch holds after each point (a recursion on the
   point), the region's invariant carrying it, the body's triple in its two cases, the proof data and the body
   obligation at every point. -/
import proofs.«138638_j39960375722309_1_alg».proof.Proof.Gen.KernelIdeal.Launch
import proofs.«138638_j39960375722309_1_alg».proof.Proof.Gen.KernelIdeal.Skeleton
import proofs.«138638_j39960375722309_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  -- an input window, never idle and uncut, whose body leaves the block in place: unfetched, its block index has not moved
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  -- the same for the window fetched at a batch's first row tile only: between fetches its block index (the batch) stands
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch on the row tile -/

/-- The body's one `scf.if`: the row-tile coordinate is zero. -/
abbrev cond1 (i : grid1.Coords) : Prop := (Scalar.cmpi .ne (Scalar.extui (Scalar.cmpi .eq (BitVec.ofNat 32 (i 1).val) 0#32)) 0#32) = 1#1
/-- It holds at the points that are multiples of 16 (the first row tile of each batch). -/
theorem hcond1 : ∀ t : Fin cfg1.N, cond1 (grid1.coords t) ↔ t.val % 16 = 0 :=
  -- decided point by point over the 64 points of the grid
  (by decide +kernel : ∀ t : Fin grid1.N, cond1 (grid1.coords t) ↔ t.val % 16 = 0)

/-! ## The scratch: the memref, and what it holds after each point -/

/-- The scratch operand: a whole scoped buffer of the kernel's own. -/
abbrev scM1 : Memref sig .tc .vmem S1x4096 .f32 := Memref.whole cc1_scratch0

/-- What the scratch holds after the body at position `n`: at a first row tile the maximum of zero with the tile's
    column maxima; elsewhere the maximum of what the point before left with the tile's column maxima. -/
def acc1 (c : Dev nD) : (n : ℕ) → n < cfg1.N → Vec F S1x4096 .f32
  | 0, hn => k1_pay3 (iblk1 V c 0 ⟨0, hn⟩) (iblk1 V c 1 ⟨0, hn⟩) (k1_pay2 (F := F))
  | n + 1, hn =>
    if (n + 1) % 16 = 0 then k1_pay3 (iblk1 V c 0 ⟨n + 1, hn⟩) (iblk1 V c 1 ⟨n + 1, hn⟩) (k1_pay2 (F := F))
    else k1_pay3 (iblk1 V c 0 ⟨n + 1, hn⟩) (iblk1 V c 1 ⟨n + 1, hn⟩) (acc1 c n (Nat.lt_of_succ_lt hn))

/-- At a first row tile. -/
theorem acc1_reset (c : Dev nD) (t : Fin cfg1.N) (h : t.val % 16 = 0) :
    acc1 V c t.val t.isLt = k1_pay3 (iblk1 V c 0 t) (iblk1 V c 1 t) (k1_pay2 (F := F)) := by
  -- the recursion unfolded once: at position 0 its first equation, at a successor the branch of the test taken
  obtain ⟨n, hn⟩ := t
  cases n with
  | zero => exact rfl
  | succ n => exact (if_pos h).trans rfl
/-- At a later row tile. -/
theorem acc1_step (c : Dev nD) (t : Fin cfg1.N) (h : ¬ t.val % 16 = 0) :
    acc1 V c t.val t.isLt = k1_pay3 (iblk1 V c 0 t) (iblk1 V c 1 t) (acc1 V c (t.val - 1) (Nat.lt_of_le_of_lt (Nat.sub_le _ _) t.isLt)) := by
  -- position 0 is a multiple of 16, so the point is a successor, and there the test fails
  obtain ⟨n, hn⟩ := t
  cases n with
  | zero => exact (by exfalso; (try dsimp only at h); exact absurd (Nat.zero_mod _) h)
  | succ n => exact (if_neg h).trans rfl

/-! ## The body's triple, case by case -/

/-- Zero offsets, however they are spelt. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of the whole buffer, after stores of which the LAST filled it whole, reads that store's payload, whatever
    the earlier stores were. -/
private theorem readCov_cons_unit_zero {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

set_option maxHeartbeats 4000000 in
/-- At a first row tile: the scratch, at anything, is reset and ends at the maximum of zero with the tile's column
    maxima; the output block at that, reshaped. -/
theorem sound_kernel1_reset (c : Dev nD) (E : Set ℕ) (i : grid1.Coords) (hc : cond1 i)
    (arg2 : Memref sig .tc .vmem S1x256x256 .bf16) (harg2 : arg2.IsWhole) (arg3 : Memref sig .tc .vmem S1x256x4096 .bf16) (harg3 : arg3.IsWhole)
    (arg4 : Memref sig .tc .vmem S1x1x4096 .f32) (harg4 : arg4.IsWhole) (arg5 : Memref sig .tc .vmem S1x4096 .f32) (harg5 : arg5.IsWhole)
    (x0 : Vec F S1x256x256 .bf16) (x1 : Vec F S1x256x4096 .bf16) (K : PUnit → sProp 𝕄) :
    iprop(owns (c : Thread nD τ) arg2 fullShare x0 ∗ owns (c : Thread nD τ) arg3 fullShare x1
        ∗ (∃ d, owns (c : Thread nD τ) arg4 fullShare d) ∗ (∃ s, owns (c : Thread nD τ) arg5 fullShare s)
        ∗ (iprop(owns (c : Thread nD τ) arg2 fullShare x0 ∗ owns (c : Thread nD τ) arg3 fullShare x1
            ∗ owns (c : Thread nD τ) arg4 fullShare (k1_pay1 (k1_pay3 x0 x1 (k1_pay2 (F := F))))
            ∗ owns (c : Thread nD τ) arg5 fullShare (k1_pay3 x0 x1 (k1_pay2 (F := F)))) -∗ K ⟨⟩))
      ⊢ wp frame (wpE (defs₀ (F := F)) Variants.none c none) E (cc1__context_kernel i arg2 harg2 arg3 harg3 arg4 harg4 arg5 harg5) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%d2, %f2, -, H2⟩, ⟨%s, %fs, -, HS⟩, Hk⟩
  obtain rfl := harg2.eq_unread hf0; obtain rfl := harg3.eq_unread hf1
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    -- the block's one store fills it; its payload reshapes what the scratch's last load read: the update just stored,
    -- itself over what the load after the reset read, the zero row
    sl_unfold_words
    refine (View.read_writes_eq_canon _ _ _ ?_).trans ?_
    · intro y; exact ⟨_, List.Mem.head _, View.mem_set_unit_zero (S := S1x1x4096) hz3 inb_S1x1x4096_S1x1x4096_0_0_0 y⟩
    rw [View.canon_unit_zero (S := S1x1x4096) hz3]
    rw [readCov_cons_unit_zero (S := S1x4096) _ hz2, View.readCov_unit_zero (S := S1x4096) _ hz2]
    simp only [View.readAt_eq_ld, harg2.read_unread, harg3.read_unread, View.ld_unit_zero (S := S1x256x256) hz3,
      View.ld_unit_zero (S := S1x256x4096) hz3]
  iexists _; isplitr
  swap; · iexact HS
  ipureintro
  -- the scratch's two stores each fill it: the later one, the update over the zero row read back, is what it holds
  sl_unfold_words
  refine (View.read_writes_eq_canon _ _ _ ?_).trans ?_
  · intro y; exact ⟨_, List.Mem.head _, View.mem_set_unit_zero (S := S1x4096) hz2 inb_S1x4096_S1x4096_0_0 y⟩
  rw [View.canon_cons_unit_zero (S := S1x4096) hz2, View.readCov_unit_zero (S := S1x4096) _ hz2]
  simp only [View.readAt_eq_ld, harg2.read_unread, harg3.read_unread, View.ld_unit_zero (S := S1x256x256) hz3,
    View.ld_unit_zero (S := S1x256x4096) hz3]

set_option maxHeartbeats 4000000 in
/-- At a later row tile: the scratch, at what the point before left, ends at its maximum with the tile's column
    maxima; the output block at that, reshaped. -/
theorem sound_kernel1_step (c : Dev nD) (E : Set ℕ) (i : grid1.Coords) (hc : ¬ cond1 i)
    (arg2 : Memref sig .tc .vmem S1x256x256 .bf16) (harg2 : arg2.IsWhole) (arg3 : Memref sig .tc .vmem S1x256x4096 .bf16) (harg3 : arg3.IsWhole)
    (arg4 : Memref sig .tc .vmem S1x1x4096 .f32) (harg4 : arg4.IsWhole) (arg5 : Memref sig .tc .vmem S1x4096 .f32) (harg5 : arg5.IsWhole)
    (x0 : Vec F S1x256x256 .bf16) (x1 : Vec F S1x256x4096 .bf16) (s : Vec F S1x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay1 (k1_pay3 x0 x1 s))
            ∗ owns (c : Thread nD τ) arg5 fullShare (k1_pay3 x0 x1 s)) -∗ K ⟨⟩))
      ⊢ wp frame (wpE (defs₀ (F := F)) Variants.none c none) E (cc1__context_kernel i arg2 harg2 arg3 harg3 arg4 harg4 arg5 harg5) K := by
  simp only [cc1__context_kernel_eq_skeleton]; unfold cc1__context_kernel_skel
  simp only [k1_part1_eq_skeleton]; unfold k1_part1_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    -- the block's one store fills it; its payload reshapes what the scratch's last load read: the update just stored
    sl_unfold_words
    refine (View.read_writes_eq_canon _ _ _ ?_).trans ?_
    · intro y; exact ⟨_, List.Mem.head _, View.mem_set_unit_zero (S := S1x1x4096) hz3 inb_S1x1x4096_S1x1x4096_0_0_0 y⟩
    rw [View.canon_unit_zero (S := S1x1x4096) hz3]
    rw [View.readCov_unit_zero (S := S1x4096) _ hz2]
    simp only [View.readAt_eq_ld, harg2.read_unread, harg3.read_unread, harg5.read_unread, View.ld_unit_zero (S := S1x256x256) hz3,
      View.ld_unit_zero (S := S1x256x4096) hz3, View.ld_unit_zero (S := S1x4096) hz2]
  iexists _; isplitr
  swap; · iexact HS
  ipureintro
  -- the scratch's one store fills it: the update over what the scratch held, read whole
  sl_unfold_words
  refine (View.read_writes_eq_canon _ _ _ ?_).trans ?_
  · intro y; exact ⟨_, List.Mem.head _, View.mem_set_unit_zero (S := S1x4096) hz2 inb_S1x4096_S1x4096_0_0 y⟩
  rw [View.canon_unit_zero (S := S1x4096) hz2]
  simp only [View.readAt_eq_ld, harg2.read_unread, harg3.read_unread, harg5.read_unread, View.ld_unit_zero (S := S1x256x256) hz3,
    View.ld_unit_zero (S := S1x256x4096) hz3, View.ld_unit_zero (S := S1x4096) hz2]

/-! ## The region's invariant -/

/-- The core's scoped buffers that are no staging buffer of this pipeline and not the scratch (the first pipeline's nine
    staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- A chain of ten conjuncts beside an eleventh, rebracketed: the first nine together, then the tenth, then the eleventh. -/
private theorem sep_last_out {M : Type} [URA M] (A0 A1 A2 A3 A4 A5 A6 A7 A8 S G : sProp M) :
    iprop((A0 ∗ A1 ∗ A2 ∗ A3 ∗ A4 ∗ A5 ∗ A6 ∗ A7 ∗ A8 ∗ S) ∗ G) = iprop(((A0 ∗ A1 ∗ A2 ∗ A3 ∗ A4 ∗ A5 ∗ A6 ∗ A7 ∗ A8) ∗ S) ∗ G) :=
  BI.Entails.antisymm
    (show iprop((A0 ∗ A1 ∗ A2 ∗ A3 ∗ A4 ∗ A5 ∗ A6 ∗ A7 ∗ A8 ∗ S) ∗ G) ⊢ iprop(((A0 ∗ A1 ∗ A2 ∗ A3 ∗ A4 ∗ A5 ∗ A6 ∗ A7 ∗ A8) ∗ S) ∗ G) from by
      iintro ⟨⟨H0, H1, H2, H3, H4, H5, H6, H7, H8, HS⟩, Hg⟩
      isplitr [Hg]
      · isplitr [HS]
        · isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        iexact HS
      iexact Hg)
    (show iprop(((A0 ∗ A1 ∗ A2 ∗ A3 ∗ A4 ∗ A5 ∗ A6 ∗ A7 ∗ A8) ∗ S) ∗ G) ⊢ iprop((A0 ∗ A1 ∗ A2 ∗ A3 ∗ A4 ∗ A5 ∗ A6 ∗ A7 ∗ A8 ∗ S) ∗ G) from by
      iintro ⟨⟨⟨H0, H1, H2, H3, H4, H5, H6, H7, H8⟩, HS⟩, Hg⟩
      isplitr [Hg]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact HS
      iexact Hg)

/-- The class's invariant with the scratch split out, owned as a memref at some contents. -/
theorem PhiA1_eq (c : Dev nD) :
    (Pipeline.ΦA spec1 c : sProp 𝕄)
      = iprop(iprop(others1 (F := F) c ∗ (∃ d, owns (c : Thread nD τ) scM1 fullShare d)) ∗ (∃ r, prngReg c r)) := by
  -- the scoped rest is its ten buffers one by one, the scratch the last; a whole buffer owned as a memref is its points-to;
  -- what is left is the chain's bracketing, an entailment each way
  unfold Pipeline.ΦA others1; rw [scopedRest1_eq]; simp only [scM1, owns_whole]
  exact sep_last_out _ _ _ _ _ _ _ _ _ _ _

/-- The region invariant before position `n`: before the first point the class's (the scratch at anything); afterwards
    the scratch at what the point before left, the other scoped buffers at anything, the generator register at some state. -/
def PhiS (c : Dev nD) : (n : ℕ) → n ≤ cfg1.N → sProp 𝕄
  | 0, _ => Pipeline.ΦA spec1 c
  | n + 1, hn => iprop(iprop(others1 (F := F) c ∗ owns (c : Thread nD τ) scM1 fullShare (acc1 V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(others1 (F := F) c ∗ owns (c : Thread nD τ) scM1 fullShare (acc1 V c n hn)) ∗ (∃ r, prngReg c r)) := rfl
theorem PhiS_pos (c : Dev nD) (n : ℕ) (h : n ≤ cfg1.N) (hz : n ≠ 0) :
    PhiS V c n h = iprop(iprop(others1 (F := F) c ∗ owns (c : Thread nD τ) scM1 fullShare (acc1 V c (n - 1) (by omega))) ∗ (∃ r, prngReg c r)) := by
  cases n with
  | zero => exact absurd rfl hz
  | succ n => rfl

/-! ## The pipeline's proof data -/

/-- The proof data of the second pipeline on core `c`: the arrays as the region finds them; after the body each input's
    buffer at its block and the output's at the scratch's contents reshaped; the invariant carrying the scratch;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (acc1 V c t.val t.isLt) := by dsimp only [dat1]

/-- Each input's current staging buffer holds its block at every point, fetched there or not. -/
private theorem before1_0 (c : Dev nD) (t : Fin cfg1.N) (d) : (dat1 V c).before 0 t d = iblk1 V c 0 t :=
  before1_0_of V (dat1 V c) (A_eq1 V c 0) (after1_0 V c) t d
private theorem before1_1 (c : Dev nD) (t : Fin cfg1.N) (d) : (dat1 V c).before 1 t d = iblk1 V c 1 t :=
  before1_1_of V (dat1 V c) (A_eq1 V c 1) (after1_1 V c) t d

/-- The invariant at a point's start, restated at the point's position. -/
private theorem PhiS_castSucc (c : Dev nD) (t : Fin cfg1.N) :
    (dat1 V c).Φ t.castSucc = PhiS V c t.val (Nat.le_of_lt t.isLt) := by
  dsimp only [dat1]; simp only [Fin.coe_castSucc]

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: no window is idle anywhere, so each buffer at what the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point. The inputs' buffers hold their blocks; the output's buffer holds something. At a first row
    tile the branch is taken: the scratch comes at some contents (from the class's invariant at the very first point,
    from the point before's otherwise), is reset, and ends at the recursion's value there. At a later row tile the branch
    is not taken: the scratch comes at what the point before left, and ends at the recursion's value. The other scoped
    buffers, the generator register and what the core owes pass through untouched. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [after1_0, after1_1, after1_2, PhiS_castSucc]
  by_cases h0 : t.val % 16 = 0
  · rw [acc1_reset V c t h0]
    by_cases hz : t.val = 0
    · rw [PhiS_zero V c _ _ hz, PhiA1_eq]
      iintro ⟨⟨⟨Hr, HS⟩, Hg⟩, Ho, ⟨%d0, H0⟩, ⟨%d1, H1⟩, ⟨%d2, H2⟩⟩
      iapply (sound_kernel1_reset c Set.univ (grid1.coords t) ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexact H2
    · rw [PhiS_pos V c _ _ hz]
      iintro ⟨⟨⟨Hr, HS⟩, Hg⟩, Ho, ⟨%d0, H0⟩, ⟨%d1, H1⟩, ⟨%d2, H2⟩⟩
      iapply (sound_kernel1_reset c Set.univ (grid1.coords t) ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [Hr HS Hg]
      · isplitl [Hr HS]
        · isplitl [Hr]; · iexact Hr
          iexact HS
        iexact Hg
      isplitl [Ho]; · iexact Ho
      isplitl [H0]; · iexact H0
      isplitl [H1]; · iexact H1
      iexact H2
  · have hz : t.val ≠ 0 := fun e => h0 (by rw [e])
    rw [acc1_step V c t h0, PhiS_pos V c _ _ hz]
    iintro ⟨⟨⟨Hr, HS⟩, Hg⟩, Ho, ⟨%d0, H0⟩, ⟨%d1, H1⟩, ⟨%d2, H2⟩⟩
    iapply (sound_kernel1_step c Set.univ (grid1.coords t) (fun h => h0 ((hcond1 t).mp h)) _ _ _ _ _ _ _ _ (iblk1 V c 0 t) (iblk1 V c 1 t)
      (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [Hr HS Hg]
    · isplitl [Hr HS]
      · isplitl [Hr]; · iexact Hr
        iexact HS
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _
/-- After the last point the invariant gives the class's back: the scratch's named contents are forgotten. -/
theorem hout1 (c : Dev nD) : (dat1 V c).Φ (Fin.last cfg1.N) ⊢ Pipeline.ΦA spec1 c := by
  -- the last position is not the first (the grid has 64 points): the scratch is owned at the last point's contents, so at some
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro ⟨⟨Ho, HS⟩, Hg⟩
  isplitl [Ho HS]
  · isplitl [Ho]; · iexact Ho
    iexists _; iexact HS
  iexact Hg

end Cert.KernelIdeal.Hand

end
-- ==== Proof.KI.Run.lean ====
/- The program's run as a whole: @main is a stretch of host operations (the channel means of y and two reshapes), the
   normalising region, the contextual-loss region, and a closing stretch of host operations (the means and the
   logarithm). Stated here: what every unscoped buffer of a core holds at each boundary between these four items, as a
   fold from the launch memory (a host stretch applies its operations; a region leaves its windows' arrays at what its
   write-backs fold to and everything else as it was); that the two argument arrays come through unchanged; the proof
   data of both pipelines, each at its region's entry contents; each region as a segment between the thread states
   "every unscoped buffer at the boundary's contents, the generator register at some state, nothing owed"; and the
   run: every weakly fair execution of @main terminates, and in every final state every unscoped buffer holds the last
   boundary's contents. -/
import proofs.«138638_j39960375722309_1_alg».proof.Proof.KI.R0
import proofs.«138638_j39960375722309_1_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the opening host stretch (the first region's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references (the second region's entry: no host operation stands between the regions). -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At the second region's exit: its arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the closing host stretch: the program's end. -/
abbrev B4 : Dev nD → Valuation τ sig (Elt F) := fun c => StableHlo.after hostOps2 (B3 m ρ c)

/-! ## The arguments end as launched: no host operation writes one and no region has one among its arrays -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-! ## The proof data family and the thread state -/

/-- No pipeline has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E2 m ρ) c
abbrev 𝒱' : Variants := Variants.none
/-- No core owes another anything: no level is assigned. -/
abbrev L' : GSem nD τ sig → Finset Unit := fun _ => ∅
abbrev lv' : GSem nD τ sig → Unit → ℕ := fun _ _ => 0
/-- What rides beside the buffers through every segment: the generator register at some state, and nothing owed. -/
abbrev Rd (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The normalising region: entered from every unscoped buffer at the first boundary's contents, left at the second's. -/
def reg0 : Pipeline.RegionSeg (pcfgs (F := F)) adm' (pdats m ρ) () defs₀ 𝒱' L' lv' 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L' lv' 0 fun _ _ => rfl
  pre c := iprop(StableHlo.held (c : Thread nD τ) (Pipeline.ucRefs τ sig) (B1 m ρ c) ∗ Rd c)
  post c := iprop(StableHlo.held (c : Thread nD τ) (Pipeline.ucRefs τ sig) (B2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The contextual-loss region: entered from every unscoped buffer at the second boundary's contents, left at the third's.
    Its invariant carries the scratch; it is entered from the class's invariant and gives it back at the end. -/
def reg1 : Pipeline.RegionSeg (pcfgs (F := F)) adm' (pdats m ρ) () defs₀ 𝒱' L' lv' 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L' lv' 1 fun _ _ => rfl
  pre c := iprop(StableHlo.held (c : Thread nD τ) (Pipeline.ucRefs τ sig) (B2 m ρ c) ∗ Rd c)
  post c := iprop(StableHlo.held (c : Thread nD τ) (Pipeline.ucRefs τ sig) (B3 m ρ c) ∗ Rd c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E2 m ρ) c)
    unfold Pipeline.ΦA
    iintro ⟨Hp, -, Hr⟩
    isplitl [Hr]; · iexact Hr
    iexact Hp
  hout c := by
    rw [Pipeline.ownSems0_none]
    refine (hout1 (E2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four segments in order. -/
abbrev segs' : List (Pipeline.Seg (pcfgs (F := F)) adm' (pdats m ρ) () defs₀ 𝒱' L' lv') :=
  [ .host (hseg hostOps0 hostOps0_sub hostOps0_fresh' (B0 m ρ)),
    .region (reg0 m ρ),
    .region (reg1 m ρ),
    .host (hseg hostOps2 hostOps2_sub hostOps2_fresh' (B3 m ρ)) ]
/-- @main is the run of the segments. -/
theorem main_run (c : Dev nD) : main (F := F) c = Pipeline.Seg.run (segs' m ρ) := (main_chain c).trans (by chain_rfl)

set_option backward.isDefEq.respectTransparency.types false in
/-- THE RUN: from any memory with zero counters, every weakly fair execution of @main on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm' (pdats m ρ) () cellOf_inj emb₁ defs₀ 𝒱' L' lv' m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rd c)) (Tₙ := Tend m ρ)
    (hch := ⟨fun _ => .rfl, fun _ => .rfl, fun _ => .rfl, fun _ => .rfl, fun c => by
      show (iprop(StableHlo.held (c : Thread nD τ) (Pipeline.ucRefs τ sig) (B4 m ρ c) ∗ Rd c) : sProp 𝕄)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

end Cert.KernelIdeal.Hand

end
-- ==== Proof.Val.Spec.lean ====
/- The arithmetic both programs perform, stated once over the extended reals with plain index types, and the laws that
   join the two sides.
   One ROW of the affinity matrix: for a query position with normalised features `a c` (c a channel) and the key
   positions' normalised features `b c k`, the cosine distance `dist k = 1 - Σ_c a c · b c k`, its minimum over the keys,
   the relative distance `dist k / (min + ε)`, the weight `exp ((1 - that) · 2)` (one program multiplies by two, the
   other divides by one half: the same extended real), and the weight divided by the row's sum of weights. A row's
   minimum is attained at some key, where the relative distance is never +∞, so that key's weight is positive, the row's
   sum of weights is positive, and every quotient is nonnegative. Hence a column's maximum over all rows is nonnegative,
   and taking it tile by tile into an accumulator that starts from zero gives the plain maximum over all rows. -/
import Idealize.ShloMosaic.PureOps.Ideal
import Idealize.ShloMosaic.PureOps.Ideal.Laws

noncomputable section

namespace Cert.Spec

open Idealize.ShloMosaic

/-- The float words the two programs share, as the extended reals they denote. -/
abbrev wZero : EReal := Ideal.ofBits .f32 0x00000000#32
abbrev wOne : EReal := Ideal.ofBits .f32 0x3F800000#32
abbrev wEps : EReal := Ideal.ofBits .f32 0x3727C5AC#32
abbrev wTwo : EReal := Ideal.ofBits .f32 0x40000000#32
abbrev wHalf : EReal := Ideal.ofBits .f32 0x3F000000#32
abbrev wPInf : EReal := Ideal.ofBits .f32 0x7F800000#32
abbrev wNInf : EReal := Ideal.ofBits .f32 0xFF800000#32

/-! ## What the words denote -/

private theorem wZero_eq : wZero = 0 := Ideal.ofBits_zero_f32
private theorem wOne_eq : wOne = ((1 : ℝ) : EReal) := by
  simp [Ideal.ofBits, Ideal.ieee, -EReal.coe_mul]; norm_num
private theorem wTwo_eq : wTwo = ((2 : ℝ) : EReal) := by
  simp [Ideal.ofBits, Ideal.ieee, -EReal.coe_mul]; norm_num
private theorem wHalf_eq : wHalf = ((1 / 2 : ℝ) : EReal) := by
  simp [Ideal.ofBits, Ideal.ieee, -EReal.coe_mul]; norm_num
private theorem wEps_eq : ∃ e : ℝ, 0 < e ∧ wEps = (e : EReal) := by
  refine ⟨(10995116 : ℝ) * (2 : ℝ) ^ (-40 : ℤ), by positivity, ?_⟩
  simp [Ideal.ofBits, Ideal.ieee, -EReal.coe_mul]
private theorem wPInf_eq : wPInf = ⊤ := by
  simp [Ideal.ofBits, Ideal.ieee]
private theorem wNInf_eq : wNInf = ⊥ := by
  simp [Ideal.ofBits, Ideal.ieee]

/-! ## The corners of the exponential, the quotient and the difference -/

/-- The exponential is nonnegative everywhere: `0` at `-∞`, `+∞` at `+∞`. -/
private theorem iexp_nonneg (z : EReal) : 0 ≤ Ideal.exp z := by
  induction z using EReal.rec with
  | bot => rw [Ideal.exp_bot]
  | coe r => rw [Ideal.exp_coe]; exact EReal.coe_nonneg.2 (Real.exp_pos r).le
  | top => rw [Ideal.exp_top]; exact le_top

/-- and vanishes only at `-∞`. -/
private theorem iexp_pos {z : EReal} (hz : z ≠ ⊥) : 0 < Ideal.exp z := by
  induction z using EReal.rec with
  | bot => exact absurd rfl hz
  | coe r => rw [Ideal.exp_coe]; exact EReal.coe_pos.2 (Real.exp_pos r)
  | top => rw [Ideal.exp_top]; exact EReal.zero_lt_top

/-- A nonnegative over a positive (possibly `+∞`, whose inverse is `0`) is nonnegative. -/
private theorem idiv_nonneg {x y : EReal} (hx : 0 ≤ x) (hy : 0 < y) : 0 ≤ Ideal.div x y := by
  rw [Ideal.div, if_neg hy.ne']
  exact EReal.mul_nonneg hx (EReal.inv_nonneg_of_nonneg hy.le)

/-- `d / (d + ε)` with `ε` a positive real is never `+∞`: at `d = ±∞` the divisor is `±∞`, whose inverse is `0`;
    at a real `d` the divisor vanishes only for `d = -ε < 0`, where the quotient is `-∞`. -/
private theorem div_self_add_ne_top (d : EReal) {e : ℝ} (he : 0 < e) : Ideal.div d (d + (e : EReal)) ≠ ⊤ := by
  induction d using EReal.rec with
  | bot =>
    rw [EReal.bot_add, Ideal.div, if_neg EReal.bot_ne_zero, EReal.inv_bot, mul_zero]
    exact EReal.zero_ne_top
  | coe r =>
    rw [Ideal.div, ← EReal.coe_add]
    split_ifs with h0 hpos
    · exfalso
      have h1 : r + e = 0 := by exact_mod_cast h0
      have h2 : 0 < r := by exact_mod_cast hpos
      linarith
    · exact bot_ne_top
    · rw [← EReal.coe_inv, ← EReal.coe_mul]; exact EReal.coe_ne_top _
  | top =>
    rw [EReal.top_add_coe, Ideal.div, if_neg EReal.top_ne_zero, EReal.inv_top, mul_zero]
    exact EReal.zero_ne_top

/-- `1 - t` is `-∞` only at `t = +∞`. -/
private theorem one_sub_ne_bot {t : EReal} (ht : t ≠ ⊤) : ((1 : ℝ) : EReal) - t ≠ ⊥ := by
  induction t using EReal.rec with
  | bot => rw [EReal.coe_sub_bot]; exact top_ne_bot
  | coe r => rw [← EReal.coe_sub]; exact EReal.coe_ne_bot _
  | top => exact absurd rfl ht

/-- A positive real multiple of something other than `-∞` is not `-∞`. -/
private theorem mul_pos_real_ne_bot {z : EReal} (hz : z ≠ ⊥) {c : ℝ} (hc : 0 < c) : z * (c : EReal) ≠ ⊥ := by
  induction z using EReal.rec with
  | bot => exact absurd rfl hz
  | coe r => rw [← EReal.coe_mul]; exact EReal.coe_ne_bot _
  | top => rw [EReal.top_mul_coe_of_pos hc]; exact top_ne_bot

/-- A fold of `min` is its initial value or one of its terms. -/
private theorem fold_min_attained {ι : Type} [DecidableEq ι] (s : Finset ι) (f : ι → EReal) (b : EReal) :
    s.fold min b f = b ∨ ∃ k ∈ s, s.fold min b f = f k := by
  induction s using Finset.induction_on with
  | empty => left; rw [Finset.fold_empty]
  | insert i s hi ih =>
    rw [Finset.fold_insert hi]
    rcases min_choice (f i) (s.fold min b f) with h | h
    · right; exact ⟨i, Finset.mem_insert_self i s, h⟩
    · rw [h]
      rcases ih with ih | ⟨k, hk, ih⟩
      · left; exact ih
      · right; exact ⟨k, Finset.mem_insert_of_mem hk, ih⟩

/-! ## Normalising one spatial position over the channels -/

/-- `(v c - μ c) / sqrt (Σ_k (v k - μ k)²)`. -/
def nrm (v mu : Fin 256 → EReal) (c : Fin 256) : EReal :=
  Ideal.div (v c - mu c) (Ideal.sqrt (∑ k : Fin 256, (v k - mu k) * (v k - mu k)))

/-- The same with the sum taken from the zero word, as a host sum is. -/
theorem nrm_zero_add (v mu : Fin 256 → EReal) (c : Fin 256) :
    Ideal.div (v c - mu c) (Ideal.sqrt (wZero + ∑ k : Fin 256, (v k - mu k) * (v k - mu k))) = nrm v mu c := by
  rw [wZero_eq, zero_add]; rfl

/-! ## One row of the affinity matrix -/

section Row

variable (a : Fin 256 → EReal) (b : Fin 256 → Fin 4096 → EReal)

def dist (k : Fin 4096) : EReal := wOne - ∑ c : Fin 256, a c * b c k
def dmin : EReal := (Finset.univ : Finset (Fin 4096)).fold min wPInf (dist a b)
def dtil (k : Fin 4096) : EReal := Ideal.div (dist a b k) (dmin a b + wEps)
/-- The weight as the kernel computes it, -/
def wK (k : Fin 4096) : EReal := Ideal.exp ((wOne - dtil a b k) * wTwo)
/-- and as the reference does. -/
def wR (k : Fin 4096) : EReal := Ideal.exp (Ideal.div (wOne - dtil a b k) wHalf)
def cxK (k : Fin 4096) : EReal := Ideal.div (wK a b k) (∑ j : Fin 4096, wK a b j)
def cxR (k : Fin 4096) : EReal := Ideal.div (wR a b k) (wZero + ∑ j : Fin 4096, wR a b j)

/-- Multiplying by two is dividing by one half, on every extended real. -/
theorem wK_eq_wR : wK a b = wR a b := by
  funext k
  unfold wK wR
  rw [wHalf_eq, Ideal.div_coe (by norm_num), wTwo_eq]
  norm_num
theorem cxK_eq_cxR : cxK a b = cxR a b := by
  funext k
  unfold cxK cxR
  rw [wK_eq_wR, wZero_eq, zero_add]

/-- The row's minimum is the distance of some key: the fold is `+∞` or a term, and if it is `+∞` every term, lying
    above it, is `+∞` too. -/
private theorem dmin_attained : ∃ k, dmin a b = dist a b k := by
  have h := fold_min_attained Finset.univ (dist a b) wPInf
  unfold dmin
  rcases h with h | ⟨k, _, h⟩
  · refine ⟨0, ?_⟩
    have h1 : (Finset.univ : Finset (Fin 4096)).fold min wPInf (dist a b) ≤ dist a b 0 :=
      (Finset.fold_min_le _).2 (Or.inr ⟨0, Finset.mem_univ _, le_rfl⟩)
    rw [h, wPInf_eq] at h1 ⊢
    exact (top_le_iff.1 h1).symm
  · exact ⟨k, h⟩
/-- Every normalised affinity is nonnegative. -/
theorem cxR_nonneg (k : Fin 4096) : 0 ≤ cxR a b k := by
  obtain ⟨ks, hks⟩ := dmin_attained a b
  obtain ⟨e, he, hE⟩ := wEps_eq
  -- at the key of least distance the relative distance is not +∞,
  have h1 : dtil a b ks ≠ ⊤ := by
    unfold dtil; rw [hks, hE]; exact div_self_add_ne_top _ he
  -- so the exponent there is not -∞ and that key's weight is positive;
  have h2 : wOne - dtil a b ks ≠ ⊥ := by rw [wOne_eq]; exact one_sub_ne_bot h1
  have h3 : Ideal.div (wOne - dtil a b ks) wHalf ≠ ⊥ := by
    rw [wHalf_eq, Ideal.div_coe (by norm_num)]; exact mul_pos_real_ne_bot h2 (by norm_num)
  have h4 : 0 < wR a b ks := iexp_pos h3
  -- the row's sum of nonnegative weights is at least that weight.
  have h5 : wR a b ks ≤ ∑ j, wR a b j :=
    Finset.single_le_sum (f := wR a b) (fun j _ => (iexp_nonneg _ : 0 ≤ wR a b j)) (Finset.mem_univ ks)
  unfold cxR; rw [wZero_eq, zero_add]
  exact idiv_nonneg (iexp_nonneg _) (h4.trans_le h5)
theorem cxK_nonneg (k : Fin 4096) : 0 ≤ cxK a b k := by
  rw [cxK_eq_cxR]; exact cxR_nonneg a b k

end Row

/-! ## A maximum over 4096 rows taken as sixteen tiles of 256 into an accumulator that starts from zero -/

theorem fold_tiles (f : Fin 4096 → EReal) (hf : ∀ p, 0 ≤ f p) (A T : ℕ → EReal)
    (hT : ∀ j (hj : j < 16), T j = (Finset.univ : Finset (Fin 256)).fold max wNInf (fun r => f ⟨256 * j + r.val, by omega⟩))
    (h0 : A 0 = max 0 (T 0)) (hs : ∀ j, j + 1 < 16 → A (j + 1) = max (A j) (T (j + 1))) :
    A 15 = (Finset.univ : Finset (Fin 4096)).fold max wNInf f := by
  -- the accumulator after tile j is the least upper bound of 0 and the first j + 1 tile maxima
  have hA : ∀ j, j < 16 → ∀ z, A j ≤ z ↔ 0 ≤ z ∧ ∀ i, i ≤ j → T i ≤ z := by
    intro j
    induction j with
    | zero =>
      intro _ z; rw [h0, max_le_iff]
      constructor
      · rintro ⟨hz, ht⟩; exact ⟨hz, fun i hi => by rw [Nat.le_zero.1 hi]; exact ht⟩
      · rintro ⟨hz, ht⟩; exact ⟨hz, ht 0 le_rfl⟩
    | succ j ih =>
      intro hj z; rw [hs j hj, max_le_iff, ih (by omega) z]
      constructor
      · rintro ⟨⟨hz, ht⟩, h1⟩
        refine ⟨hz, fun i hi => ?_⟩
        rcases Nat.lt_or_ge i (j + 1) with h | h
        · exact ht i (by omega)
        · have hij : i = j + 1 := by omega
          rw [hij]; exact h1
      · rintro ⟨hz, ht⟩; exact ⟨⟨hz, fun i hi => ht i (by omega)⟩, ht (j + 1) le_rfl⟩
  -- both sides have the same upper bounds
  apply eq_of_forall_ge_iff
  intro z
  rw [hA 15 (by norm_num) z, Finset.fold_max_le]
  constructor
  · rintro ⟨_, ht⟩
    refine ⟨by rw [wNInf_eq]; exact bot_le, fun p _ => ?_⟩
    have hp := ht (p.val / 256) (by omega)
    rw [hT _ (by omega), Finset.fold_max_le] at hp
    have hq := hp.2 ⟨p.val % 256, Nat.mod_lt _ (by norm_num)⟩ (Finset.mem_univ _)
    have e : p = ⟨256 * (p.val / 256) + p.val % 256, by omega⟩ := Fin.ext (Nat.div_add_mod p.val 256).symm
    rw [e]; exact hq
  · rintro ⟨_, hp⟩
    refine ⟨(hf 0).trans (hp 0 (Finset.mem_univ _)), fun i hi => ?_⟩
    rw [hT i (by omega), Finset.fold_max_le]
    exact ⟨by rw [wNInf_eq]; exact bot_le, fun r _ => hp _ (Finset.mem_univ _)⟩

end Cert.Spec

end
-- ==== Proof.Val.Pay0.lean ====
/- The normalising kernel's two stored values read at an index, for arbitrary contents of the three loaded blocks: at
   channel `c` and position `s` of the block each is `(x - μ_c) / sqrt (Σ_k (x_k - μ_k)²)` of the position's channel
   vector, the block's leading unit axis and the means' trailing unit axis dropped. -/
import proofs.«138638_j39960375722309_1_alg».proof.Proof.Gen.KernelIdeal.Skeleton
import proofs.«138638_j39960375722309_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- A `[256, 1]` column broadcast to `[256, 2048]` reads, at `(p, c)`, the column's entry at row `p`. -/
private theorem bcast_col (v : (⟨2, ![256, 1]⟩ : Shape).Idx → EReal)
    (h : (⟨2, ![256, 1]⟩ : Shape).Broadcasts ⟨2, ![256, 2048]⟩) (p : Fin 256) (c : Fin 2048) :
    broadcastTo ⟨2, ![256, 2048]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The sum over the 256 channels of a `[256, 2048]` array, read at position `s`: no initial value enters. -/
private theorem lane_sum (src : FVec Ideal S256x2048 .f32) (h : S256x2048.Reduces [0] S2048) (hφ : FKind.Formats .f32)
    (hacc : (0x00000000#32 : BitVec 32) = 0x00000000#32) (s : Fin 2048) :
    multiReduction (F := Ideal) .add [0] S2048 src 0x00000000#32 h hφ hacc (ix1 s) = ∑ k : Fin 256, src (ix2 k s) := by
  refine (Ideal.multiReduction_add_single src 0x00000000#32 h hφ hacc (ix1 s)).trans ?_
  refine Finset.sum_congr rfl fun k _ => congrArg src ?_
  exact funext fun a => Fin.ext (by match a with | ⟨0, _⟩ => rfl | ⟨1, _⟩ => rfl)

/-- The square root of an array read at an index is the square root of the entry. -/
private theorem sqrt_apply {S : Shape} (a : FVec Ideal S .f32) (i : S.Idx) : sqrt a i = Ideal.sqrt (a i) := rfl

theorem pay2_apply (x : Vec Ideal S1x256x2048 .f32) (mu : Vec Ideal S256x1 .f32) (c : Fin 256) (s : Fin 2048) :
    (k0_pay2 (F := Ideal) x mu (ix3 (0 : Fin 1) c s) : EReal)
      = Cert.Spec.nrm (fun k => x (ix3 (0 : Fin 1) k s)) (fun k => mu (ix2 k (0 : Fin 1))) c := by
  unfold k0_pay2 k0_pay1
  -- the index goes inward: the added unit axis, the rounding (the identity here), the quotient, the difference, the
  -- dropped unit axis, the column broadcast, the row broadcast, the root, the added unit axis, the channel sum
  rw [shapeCast_ab_1ab_apply, truncf_apply, divf_apply, subf_apply, shapeCast_1ab_ab_apply, bcast_col,
    broadcastTo_1b_ab_apply, sqrt_apply, shapeCast_a_1a_apply, lane_sum, shapeCast_self]
  unfold Cert.Spec.nrm
  refine congrArg (fun t => Ideal.div (x (ix3 (0 : Fin 1) c s) - mu (ix2 c (0 : Fin 1))) (Ideal.sqrt t))
    (Finset.sum_congr rfl fun k _ => ?_)
  -- each summand is the square of the same difference at channel `k`
  rw [mulf_apply, subf_apply, shapeCast_1ab_ab_apply, bcast_col]

theorem pay3_apply (y : Vec Ideal S1x256x2048 .f32) (mu : Vec Ideal S256x1 .f32) (c : Fin 256) (s : Fin 2048) :
    (k0_pay3 (F := Ideal) y mu (ix3 (0 : Fin 1) c s) : EReal)
      = Cert.Spec.nrm (fun k => y (ix3 (0 : Fin 1) k s)) (fun k => mu (ix2 k (0 : Fin 1))) c := by
  unfold k0_pay3 k0_pay1
  -- the index goes inward: the added unit axis, the rounding (the identity here), the quotient, the difference, the
  -- dropped unit axis, the column broadcast, the row broadcast, the root, the added unit axis, the channel sum
  rw [shapeCast_ab_1ab_apply, truncf_apply, divf_apply, subf_apply, shapeCast_1ab_ab_apply, bcast_col,
    broadcastTo_1b_ab_apply, sqrt_apply, shapeCast_a_1a_apply, lane_sum, shapeCast_self]
  unfold Cert.Spec.nrm
  refine congrArg (fun t => Ideal.div (y (ix3 (0 : Fin 1) c s) - mu (ix2 c (0 : Fin 1))) (Ideal.sqrt t))
    (Finset.sum_congr rfl fun k _ => ?_)
  -- each summand is the square of the same difference at channel `k`
  rw [mulf_apply, subf_apply, shapeCast_1ab_ab_apply, bcast_col]

end Cert.KernelIdeal.Val

end
-- ==== Proof.Val.Arr0.lean ====
/- What the normalising region leaves in its two result arrays, as whole-array functions of the program's arguments:
   the region is entered with x and y reshaped to (batch, channel, position) and the channel means of y as a column;
   every grid point writes back its block of each result, the blocks tile the arrays, and a block's entry is the
   normalised feature of its position. So at batch `n`, channel `k`, position `s` each result holds
   `(x - μ_k) / sqrt (Σ_k' (x_k' - μ_k')²)` of the channel vector at row `s / 64`, column `s % 64` of the argument. -/
import proofs.«138638_j39960375722309_1_alg».proof.Proof.KI.Run
import proofs.«138638_j39960375722309_1_alg».proof.Proof.Val.Pay0
import proofs.«138638_j39960375722309_1_alg».proof.Proof.Gen.ReferenceIdeal.Read
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg) (c : Dev nD)

/-- The column of channel means the region is entered with is the reference's vector of means: the opening host
    operations on the second argument are the reference's first operations, and the column is their result with a
    trailing unit axis. -/
theorem means_apply (k : Fin 256) :
    (E1 m ρ c main_v3 (ix2 k (0 : Fin 1)) : EReal)
      = Cert.ReferenceIdeal.Read.val_main_v2 (F := Ideal) (m ((c.tc : Thread nD τ).loc main_arg1)) (ix1 k) := by
  show StableHlo.after hostOps0 _ (Proc.devRef .tc main_v3) (ix2 k 0) = _
  after_results
  refine Eq.trans (shapeCast_apply (s := S256) (t := S256x1) _ shapeCasts_S256_S256x1 (ix2 k 0) (ix1 k) ?_) rfl
  rw [Shape.rowMajor_val_one, Shape.rowMajor_val_two]
  show k.val = k.val * 1 + 0
  omega

/-! ## The reshaped arguments at an index -/

/-- The region is entered with the first argument reshaped to (batch, channel, position): position `s` is row `s / 64`,
    column `s % 64`, the two having the same row-major place. -/
private theorem x_apply (n : Fin 4) (k : Fin 256) (s : Fin 4096) :
    (E1 m ρ c main_v4 (ix3 n k s) : EReal)
      = (m ((c.tc : Thread nD τ).loc main_arg0) (ix4 n k (⟨s.val / 64, by omega⟩ : Fin 64) (⟨s.val % 64, by omega⟩ : Fin 64)) : EReal) := by
  show StableHlo.after hostOps0 _ (Proc.devRef .tc main_v4) (ix3 n k s) = _
  after_results
  refine Eq.trans (shapeCast_apply (s := S4x256x64x64) (t := S4x256x4096) _ shapeCasts_S4x256x64x64_S4x256x4096 (ix3 n k s) (ix4 n k (⟨s.val / 64, by omega⟩ : Fin 64) (⟨s.val % 64, by omega⟩ : Fin 64)) ?_) rfl
  rw [Shape.rowMajor_val_four, Shape.rowMajor_val_three]
  show ((n.val * 256 + k.val) * 64 + s.val / 64) * 64 + s.val % 64 = (n.val * 256 + k.val) * 4096 + s.val
  omega

/-- Likewise the second argument. -/
private theorem y_apply (n : Fin 4) (k : Fin 256) (s : Fin 4096) :
    (E1 m ρ c main_v5 (ix3 n k s) : EReal)
      = (m ((c.tc : Thread nD τ).loc main_arg1) (ix4 n k (⟨s.val / 64, by omega⟩ : Fin 64) (⟨s.val % 64, by omega⟩ : Fin 64)) : EReal) := by
  show StableHlo.after hostOps0 _ (Proc.devRef .tc main_v5) (ix3 n k s) = _
  after_results
  refine Eq.trans (shapeCast_apply (s := S4x256x64x64) (t := S4x256x4096) _ shapeCasts_S4x256x64x64_S4x256x4096 (ix3 n k s) (ix4 n k (⟨s.val / 64, by omega⟩ : Fin 64) (⟨s.val % 64, by omega⟩ : Fin 64)) ?_) rfl
  rw [Shape.rowMajor_val_four, Shape.rowMajor_val_three]
  show ((n.val * 256 + k.val) * 64 + s.val / 64) * 64 + s.val % 64 = (n.val * 256 + k.val) * 4096 + s.val
  omega

/-! ## The whole normalised array, and one entry of a stored block -/

private theorem hz3 : (![0, 0, 0] : Fin 3 → Nat) = fun _ => 0 := funext fun a => by fin_cases a <;> rfl
private theorem hz2 : (![0, 0] : Fin 2 → Nat) = fun _ => 0 := funext fun a => by fin_cases a <;> rfl

/-- The normalised feature at batch `n`, channel `k`, position `s` of an array `X` of (batch, channel, position)
    with the column of channel means `M`. -/
private def nrmAt (X : S4x256x4096.Idx → EReal) (M : S256x1.Idx → EReal) (n : Fin 4) (k : Fin 256) (s : Fin 4096) : EReal :=
  Cert.Spec.nrm (fun k' => X (ix3 n k' s)) (fun k' => M (ix2 k' (0 : Fin 1))) k

/-- The whole result array. -/
private def nrmArr (X : S4x256x4096.Idx → EReal) (M : S256x1.Idx → EReal) : S4x256x4096.Idx → EReal :=
  fun i => nrmAt X M (i 0) (i 1) (i 2)

/-- One entry of a stored block: if the loaded input block holds the array's entries of the batch and position the
    entry lands on, every channel, and the loaded means are the array of means, the payload at channel `b`, position
    `d` of the block is the normalised feature at the array index `i` the entry lands on. -/
private theorem pay2_entry (x : Vec Ideal S1x256x2048 .f32) (mu : Vec Ideal S256x1 .f32)
    (X : S4x256x4096.Idx → EReal) (M : S256x1.Idx → EReal) (i : S4x256x4096.Idx) (b : Fin 256) (d : Fin 2048)
    (hi : (i 1).val = b.val)
    (hx : ∀ k : Fin 256, (x (ix3 (0 : Fin 1) k d) : EReal) = X (ix3 (n0 := 4) (n1 := 256) (n2 := 4096) (i 0) k (i 2)))
    (hmu : ∀ k : Fin 256, (mu (ix2 k (0 : Fin 1)) : EReal) = M (ix2 k (0 : Fin 1))) :
    (k0_pay2 (F := Ideal) x mu (ix3 (0 : Fin 1) b d) : EReal) = nrmArr X M i := by
  rw [pay2_apply]
  unfold nrmArr nrmAt
  have e : (i 1 : Fin 256) = b := Fin.ext hi
  rw [e]
  simp only [hx, hmu]

private theorem pay3_entry (x : Vec Ideal S1x256x2048 .f32) (mu : Vec Ideal S256x1 .f32)
    (X : S4x256x4096.Idx → EReal) (M : S256x1.Idx → EReal) (i : S4x256x4096.Idx) (b : Fin 256) (d : Fin 2048)
    (hi : (i 1).val = b.val)
    (hx : ∀ k : Fin 256, (x (ix3 (0 : Fin 1) k d) : EReal) = X (ix3 (n0 := 4) (n1 := 256) (n2 := 4096) (i 0) k (i 2)))
    (hmu : ∀ k : Fin 256, (mu (ix2 k (0 : Fin 1)) : EReal) = M (ix2 k (0 : Fin 1))) :
    (k0_pay3 (F := Ideal) x mu (ix3 (0 : Fin 1) b d) : EReal) = nrmArr X M i := by
  rw [pay3_apply]
  unfold nrmArr nrmAt
  have e : (i 1 : Fin 256) = b := Fin.ext hi
  rw [e]
  simp only [hx, hmu]

/-! ## From blocks to the arrays -/

/-- The printed index maps, decided over the grid: each result's block index is its input's, the channel axis is
    never split, the block indices stay in their ranges, and the means' block is the whole column. -/
private theorem idx_facts0 : ∀ t : Fin cfg0.N,
    win0_0.index t (0 : Fin 3) = win0_3.index t (0 : Fin 3) ∧ win0_0.index t (1 : Fin 3) = 0 ∧ win0_0.index t (2 : Fin 3) = win0_3.index t (2 : Fin 3)
    ∧ win0_1.index t (0 : Fin 3) = win0_4.index t (0 : Fin 3) ∧ win0_1.index t (1 : Fin 3) = 0 ∧ win0_1.index t (2 : Fin 3) = win0_4.index t (2 : Fin 3)
    ∧ win0_2.index t (0 : Fin 2) = 0 ∧ win0_2.index t (1 : Fin 2) = 0
    ∧ win0_3.index t (0 : Fin 3) ≤ 3 ∧ win0_3.index t (1 : Fin 3) = 0 ∧ win0_3.index t (2 : Fin 3) ≤ 1
    ∧ win0_4.index t (0 : Fin 3) ≤ 3 ∧ win0_4.index t (1 : Fin 3) = 0 ∧ win0_4.index t (2 : Fin 3) ≤ 1 :=
  (by decide +kernel : ∀ t : Fin grid0.N, _)

/-- What a grid point writes back into the first result's array is its block of the whole normalised array: the
    loaded input block holds the reshaped argument's entries of the point's batch and half of the positions, every
    channel, and the loaded means are the whole column. -/
private theorem flushed3_eq (t : Fin cfg0.N) :
    (dat0 (E1 m ρ) c).flushed 3 t = ((cfg0.win 3).blk t).view.read (Elt Ideal) (nrmArr (E1 m ρ c main_v4) (E1 m ρ c main_v3)) := by
  show (cfg0.win 3).cut (grid0.coords t) ((dat0 (E1 m ρ) c).after 3 t) = _
  rw [after0_3]
  unfold out0_3
  rw [View.canon_unit_zero hz3]
  simp only [View.ld_unit_zero (S := S1x256x2048) hz3, View.ld_unit_zero (S := S256x1) hz2]
  funext j
  obtain ⟨a, b, d, rfl⟩ : ∃ (a : Fin 1) (b : Fin 256) (d : Fin 2048), j = ix3 a b d := ⟨j 0, j 1, j 2, eq_ix3 j⟩
  obtain rfl : a = 0 := Subsingleton.elim _ _
  obtain ⟨e0, e1, e2, e3, e4, e5, e6, e7, e8, e9, e10, e11, e12, e13⟩ := idx_facts0 t
  refine (pay2_entry (iblk0 (E1 m ρ) c 0 t) (iblk0 (E1 m ρ) c 2 t) (E1 m ρ c main_v4) (E1 m ρ c main_v3) (((cfg0.win 3).blk t).view.emb (ix3 0 b d)) b d ?_ ?_ ?_).trans rfl
  · show win0_3.index t (1 : Fin 3) * 256 + 1 * b.val = b.val
    omega
  · intro k
    show E1 m ρ c main_v4 (((cfg0.win 0).blk t).view.emb (ix3 0 k d)) = _
    congr 1
    funext a; apply Fin.ext
    match a with
    | ⟨0, _⟩ => show win0_0.index t (0 : Fin 3) * 1 + 1 * 0 = win0_3.index t (0 : Fin 3) * 1 + 1 * 0; omega
    | ⟨1, _⟩ => show win0_0.index t (1 : Fin 3) * 256 + 1 * k.val = k.val; omega
    | ⟨2, _⟩ => show win0_0.index t (2 : Fin 3) * 2048 + 1 * d.val = win0_3.index t (2 : Fin 3) * 2048 + 1 * d.val; omega
  · intro k
    show E1 m ρ c main_v3 (((cfg0.win 2).blk t).view.emb (ix2 k 0)) = _
    congr 1
    funext a; apply Fin.ext
    match a with
    | ⟨0, _⟩ => show win0_2.index t (0 : Fin 2) * 256 + 1 * k.val = k.val; omega
    | ⟨1, _⟩ => show win0_2.index t (1 : Fin 2) * 1 + 1 * 0 = 0; omega

/-- Every block of the array is some point's. -/
private theorem idx_onto3 : ∀ (q0 : Fin 4) (q2 : Fin 2), ∃ t : Fin cfg0.N, win0_3.index t = ![q0.val, 0, q2.val] :=
  (by decide +kernel : ∀ (q0 : Fin 4) (q2 : Fin 2), ∃ t : Fin grid0.N, win0_3.index t = ![q0.val, 0, q2.val])

/-- An index of the array is in point `t`'s block iff each coordinate is in the block's range on its axis. -/
private theorem mem_blk3 (t : Fin cfg0.N) (i : S4x256x4096.Idx) :
    i ∈ ((cfg0.win 3).blk t).view.set ↔ ∀ a : Fin 3, win0_3.index t a * S1x256x2048.size a ≤ (i a).val ∧ (i a).val < win0_3.index t a * S1x256x2048.size a + S1x256x2048.size a := by
  show i ∈ ((View.whole main_v6_0).slice (win0_3.rect t)).set ↔ _
  rw [View.set_slice_whole, Rect.mem_set_unit]
  exact Iff.rfl

/-- The blocks tile the array: the index (n, k, s) is in the block of the point with block index (n, 0, s / 2048). -/
private theorem cover3 (i : S4x256x4096.Idx) : ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 4096 := (i 2).isLt
  obtain ⟨t, ht⟩ := idx_onto3 ⟨(i 0).val, by omega⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- So the array ends holding the whole normalised array of the reshaped argument. -/
private theorem arr3_eq : (dat0 (E1 m ρ) c).arrAt 3 cfg0.N = nrmArr (E1 m ρ c main_v4) (E1 m ρ c main_v3) :=
  (dat0 (E1 m ρ) c).arrAt_eq_of_cover 3 (nrmArr (E1 m ρ c main_v4) (E1 m ρ c main_v3)) (fun t _ => flushed3_eq m ρ c t) cover3

/-- What a grid point writes back into the second result's array is its block of the whole normalised array: the
    loaded input block holds the reshaped argument's entries of the point's batch and half of the positions, every
    channel, and the loaded means are the whole column. -/
private theorem flushed4_eq (t : Fin cfg0.N) :
    (dat0 (E1 m ρ) c).flushed 4 t = ((cfg0.win 4).blk t).view.read (Elt Ideal) (nrmArr (E1 m ρ c main_v5) (E1 m ρ c main_v3)) := by
  show (cfg0.win 4).cut (grid0.coords t) ((dat0 (E1 m ρ) c).after 4 t) = _
  rw [after0_4]
  unfold out0_4
  rw [View.canon_unit_zero hz3]
  simp only [View.ld_unit_zero (S := S1x256x2048) hz3, View.ld_unit_zero (S := S256x1) hz2]
  funext j
  obtain ⟨a, b, d, rfl⟩ : ∃ (a : Fin 1) (b : Fin 256) (d : Fin 2048), j = ix3 a b d := ⟨j 0, j 1, j 2, eq_ix3 j⟩
  obtain rfl : a = 0 := Subsingleton.elim _ _
  obtain ⟨e0, e1, e2, e3, e4, e5, e6, e7, e8, e9, e10, e11, e12, e13⟩ := idx_facts0 t
  refine (pay3_entry (iblk0 (E1 m ρ) c 1 t) (iblk0 (E1 m ρ) c 2 t) (E1 m ρ c main_v5) (E1 m ρ c main_v3) (((cfg0.win 4).blk t).view.emb (ix3 0 b d)) b d ?_ ?_ ?_).trans rfl
  · show win0_4.index t (1 : Fin 3) * 256 + 1 * b.val = b.val
    omega
  · intro k
    show E1 m ρ c main_v5 (((cfg0.win 1).blk t).view.emb (ix3 0 k d)) = _
    congr 1
    funext a; apply Fin.ext
    match a with
    | ⟨0, _⟩ => show win0_1.index t (0 : Fin 3) * 1 + 1 * 0 = win0_4.index t (0 : Fin 3) * 1 + 1 * 0; omega
    | ⟨1, _⟩ => show win0_1.index t (1 : Fin 3) * 256 + 1 * k.val = k.val; omega
    | ⟨2, _⟩ => show win0_1.index t (2 : Fin 3) * 2048 + 1 * d.val = win0_4.index t (2 : Fin 3) * 2048 + 1 * d.val; omega
  · intro k
    show E1 m ρ c main_v3 (((cfg0.win 2).blk t).view.emb (ix2 k 0)) = _
    congr 1
    funext a; apply Fin.ext
    match a with
    | ⟨0, _⟩ => show win0_2.index t (0 : Fin 2) * 256 + 1 * k.val = k.val; omega
    | ⟨1, _⟩ => show win0_2.index t (1 : Fin 2) * 1 + 1 * 0 = 0; omega

/-- Every block of the array is some point's. -/
private theorem idx_onto4 : ∀ (q0 : Fin 4) (q2 : Fin 2), ∃ t : Fin cfg0.N, win0_4.index t = ![q0.val, 0, q2.val] :=
  (by decide +kernel : ∀ (q0 : Fin 4) (q2 : Fin 2), ∃ t : Fin grid0.N, win0_4.index t = ![q0.val, 0, q2.val])

/-- An index of the array is in point `t`'s block iff each coordinate is in the block's range on its axis. -/
private theorem mem_blk4 (t : Fin cfg0.N) (i : S4x256x4096.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v6_1).slice (win0_4.rect t)).set ↔ _
  rw [View.set_slice_whole, Rect.mem_set_unit]
  exact Iff.rfl

/-- The blocks tile the array: the index (n, k, s) is in the block of the point with block index (n, 0, s / 2048). -/
private theorem cover4 (i : S4x256x4096.Idx) : ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 4096 := (i 2).isLt
  obtain ⟨t, ht⟩ := idx_onto4 ⟨(i 0).val, by omega⟩ ⟨(i 2).val / 2048, by omega⟩
  have q0 : win0_4.index t (0 : Fin 3) = (i 0).val := congrFun ht 0
  have q1 : win0_4.index t (1 : Fin 3) = 0 := congrFun ht 1
  have q2 : win0_4.index t (2 : Fin 3) = (i 2).val / 2048 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- So the array ends holding the whole normalised array of the reshaped argument. -/
private theorem arr4_eq : (dat0 (E1 m ρ) c).arrAt 4 cfg0.N = nrmArr (E1 m ρ c main_v5) (E1 m ρ c main_v3) :=
  (dat0 (E1 m ρ) c).arrAt_eq_of_cover 4 (nrmArr (E1 m ρ c main_v5) (E1 m ρ c main_v3)) (fun t _ => flushed4_eq m ρ c t) cover4

/-! ## The two results at an index -/

theorem xn_apply (n : Fin 4) (k : Fin 256) (s : Fin 4096) :
    (E2 m ρ c main_v6_0 (ix3 n k s) : EReal)
      = Cert.Spec.nrm (fun k' => (m ((c.tc : Thread nD τ).loc main_arg0) (ix4 n k' (⟨s.val / 64, by omega⟩ : Fin 64) (⟨s.val % 64, by omega⟩ : Fin 64)) : EReal))
          (fun k' => (E1 m ρ c main_v3 (ix2 k' (0 : Fin 1)) : EReal)) k := by
  have h : E2 m ρ c main_v6_0 = (dat0 (E1 m ρ) c).arrAt 3 cfg0.N := B2_arr m ρ c 3
  rw [h, arr3_eq]
  show nrmAt _ _ n k s = _
  unfold nrmAt
  exact congrArg (fun f => Cert.Spec.nrm f _ k) (funext fun k' => x_apply m ρ c n k' s)

theorem yn_apply (n : Fin 4) (k : Fin 256) (s : Fin 4096) :
    (E2 m ρ c main_v6_1 (ix3 n k s) : EReal)
      = Cert.Spec.nrm (fun k' => (m ((c.tc : Thread nD τ).loc main_arg1) (ix4 n k' (⟨s.val / 64, by omega⟩ : Fin 64) (⟨s.val % 64, by omega⟩ : Fin 64)) : EReal))
          (fun k' => (E1 m ρ c main_v3 (ix2 k' (0 : Fin 1)) : EReal)) k := by
  have h : E2 m ρ c main_v6_1 = (dat0 (E1 m ρ) c).arrAt 4 cfg0.N := B2_arr m ρ c 4
  rw [h, arr4_eq]
  show nrmAt _ _ n k s = _
  unfold nrmAt
  exact congrArg (fun f => Cert.Spec.nrm f _ k) (funext fun k' => y_apply m ρ c n k' s)

end Cert.KernelIdeal.Val

end
-- ==== Proof.Val.Pay1.lean ====
/- The contextual-loss kernel's stored values read at an index, for arbitrary contents of the loaded blocks: the value
   stored into the scratch row at column `q` is the maximum of what the scratch held there with the maximum, over the
   256 rows of the tile, of the row's normalised affinity at `q` (each row's features are a column of the x tile, the
   keys' features the whole y block); the reset value is zero; the output block is the scratch row with a unit axis
   inserted. -/
import proofs.«138638_j39960375722309_1_alg».proof.Proof.Gen.KernelIdeal.Skeleton
import proofs.«138638_j39960375722309_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-! ## The contraction over the channel axis -/

private theorem lhs_ax0 (i : S256x4096.Idx) (q : dot_S256x256_S256x4096_S256x4096_0_0_1_1_n_n.contr.Idx) :
    (dot_S256x256_S256x4096_S256x4096_0_0_1_1_n_n.lhsIdx i q 0).val = (q ⟨0, by decide⟩).val :=
  dot_S256x256_S256x4096_S256x4096_0_0_1_1_n_n.lhsIdx_val_of_single rfl i q
private theorem lhs_ax1 (i : S256x4096.Idx) (q : dot_S256x256_S256x4096_S256x4096_0_0_1_1_n_n.contr.Idx) :
    (dot_S256x256_S256x4096_S256x4096_0_0_1_1_n_n.lhsIdx i q 1).val = (i 0).val := by
  unfold DotDims.lhsIdx
  rw [dif_neg (show ¬(1 : Fin S256x256.rank) ∈ dot_S256x256_S256x4096_S256x4096_0_0_1_1_n_n.lhsBatch by decide), dif_pos (show (1 : Fin S256x256.rank) ∈ dot_S256x256_S256x4096_S256x4096_0_0_1_1_n_n.lhsNonContracting by decide)]
  rfl
private theorem rhs_ax0 (i : S256x4096.Idx) (q : dot_S256x256_S256x4096_S256x4096_0_0_1_1_n_n.contr.Idx) :
    (dot_S256x256_S256x4096_S256x4096_0_0_1_1_n_n.rhsIdx i q 0).val = (q ⟨0, by decide⟩).val :=
  dot_S256x256_S256x4096_S256x4096_0_0_1_1_n_n.rhsIdx_val_of_single rfl i q
private theorem rhs_ax1 (i : S256x4096.Idx) (q : dot_S256x256_S256x4096_S256x4096_0_0_1_1_n_n.contr.Idx) :
    (dot_S256x256_S256x4096_S256x4096_0_0_1_1_n_n.rhsIdx i q 1).val = (i 1).val := by
  unfold DotDims.rhsIdx
  rw [dif_neg (show ¬(1 : Fin S256x4096.rank) ∈ dot_S256x256_S256x4096_S256x4096_0_0_1_1_n_n.rhsBatch by decide), dif_pos (show (1 : Fin S256x4096.rank) ∈ dot_S256x256_S256x4096_S256x4096_0_0_1_1_n_n.rhsNonContracting by decide)]
  rfl

/-- The product of the transposed tile with the block, into a zero accumulator, at row `r` and key `q`: the sum over
    the channels. -/
private theorem mm_apply (A : FVec Ideal S256x256 .bf16) (B : FVec Ideal S256x4096 .bf16) (r : Fin 256) (q : Fin 4096) :
    matmul dot_S256x256_S256x4096_S256x4096_0_0_1_1_n_n none A B (constant (F := Ideal) S256x4096 .f32 0x00000000#32) (ix2 r q)
      = ∑ c : Fin 256, A (ix2 c r) * B (ix2 c q) := by
  simp only [matmul]
  rw [Ideal.matmul_constant_zero_apply, ← Equiv.sum_comp (ValueIdx.contrEquiv1 dot_S256x256_S256x4096_S256x4096_0_0_1_1_n_n 256 rfl rfl).symm]
  refine Finset.sum_congr rfl fun k _ => ?_
  have hk := ValueIdx.contrEquiv1_symm_val dot_S256x256_S256x4096_S256x4096_0_0_1_1_n_n 256 rfl rfl k
  have el : dot_S256x256_S256x4096_S256x4096_0_0_1_1_n_n.lhsIdx (ix2 r q) ((ValueIdx.contrEquiv1 dot_S256x256_S256x4096_S256x4096_0_0_1_1_n_n 256 rfl rfl).symm k) = ix2 k r := funext fun a => Fin.ext (by
    match a with
    | ⟨0, _⟩ => exact (lhs_ax0 _ _).trans hk
    | ⟨1, _⟩ => exact lhs_ax1 _ _)
  have er : dot_S256x256_S256x4096_S256x4096_0_0_1_1_n_n.rhsIdx (ix2 r q) ((ValueIdx.contrEquiv1 dot_S256x256_S256x4096_S256x4096_0_0_1_1_n_n 256 rfl rfl).symm k) = ix2 k q := funext fun a => Fin.ext (by
    match a with
    | ⟨0, _⟩ => exact (rhs_ax0 _ _).trans hk
    | ⟨1, _⟩ => exact rhs_ax1 _ _)
  rw [el, er]

/-! ## A vector made a one-column matrix, and a one-column matrix repeated along each row -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three lane reductions -/

private theorem lift_row (r : Fin 256) (q : Fin 4096) : reduces_S256x4096_S256.lift (ix1 r) q = ix2 r q :=
  funext fun a => Fin.ext (by match a with | ⟨0, _⟩ => rfl | ⟨1, _⟩ => rfl)

private theorem lift_col (q : Fin 4096) (r : Fin 256) : reduces_S256x4096_S4096.lift (ix1 q) r = ix2 r q :=
  funext fun a => Fin.ext (by match a with | ⟨0, _⟩ => rfl | ⟨1, _⟩ => rfl)

/-- A row's minimum over the keys, from plus infinity. -/
private theorem rowmin_apply (v : FVec Ideal S256x4096 .f32) (hφ : FKind.Formats .f32)
    (hacc : (0x7F800000#32 : BitVec 32) = 0x7F800000#32) (r : Fin 256) :
    multiReduction .minimumf [1] S256 v 0x7F800000#32 reduces_S256x4096_S256 hφ hacc (ix1 r)
      = (Finset.univ : Finset (Fin 4096)).fold min Cert.Spec.wPInf (fun q => v (ix2 r q)) := by
  refine (multiReduction_minimumf_eq_fold v _ reduces_S256x4096_S256 hφ hacc (ix1 r)).trans ?_
  refine (reduces_S256x4096_S256.fold_filter_drop_single _ _ v (ix1 r)).trans ?_
  exact congrArg (Finset.fold min Cert.Spec.wPInf · (Finset.univ : Finset (Fin 4096))) (funext fun q => congrArg v (lift_row r q))

/-- A row's sum over the keys. -/
private theorem rowsum_apply (v : FVec Ideal S256x4096 .f32) (hφ : FKind.Formats .f32)
    (hacc : (0x00000000#32 : BitVec 32) = 0x00000000#32) (r : Fin 256) :
    multiReduction .add [1] S256 v 0x00000000#32 reduces_S256x4096_S256 hφ hacc (ix1 r) = ∑ q : Fin 4096, v (ix2 r q) := by
  refine (Ideal.multiReduction_add_single v _ reduces_S256x4096_S256 hφ hacc (ix1 r)).trans ?_
  exact Finset.sum_congr rfl fun q _ => congrArg v (lift_row r q)

/-- A column's maximum over the rows, from minus infinity. -/
private theorem colmax_apply (v : FVec Ideal S256x4096 .f32) (hφ : FKind.Formats .f32)
    (hacc : (0xFF800000#32 : BitVec 32) = 0xFF800000#32) (q : Fin 4096) :
    multiReduction .maximumf [0] S4096 v 0xFF800000#32 reduces_S256x4096_S4096 hφ hacc (ix1 q)
      = (Finset.univ : Finset (Fin 256)).fold max Cert.Spec.wNInf (fun r => v (ix2 r q)) := by
  refine (Ideal.multiReduction_maximumf_single v _ reduces_S256x4096_S4096 hφ hacc (ix1 q)).trans ?_
  exact congrArg (Finset.fold max Cert.Spec.wNInf · (Finset.univ : Finset (Fin 256))) (funext fun r => congrArg v (lift_col q r))

/-! ## The stages of the stored value, each read at an index -/

/-- One minus the contraction over the channels. -/
private def stDist (x : Vec Ideal S1x256x256 .bf16) (y : Vec Ideal S1x256x4096 .bf16) : FVec Ideal S256x4096 .f32 :=
  subf (broadcast S256x4096 (Scalar.ofBits (F := Ideal) .f32 0x3F800000#32))
    (matmul dot_S256x256_S256x4096_S256x4096_0_0_1_1_n_n none (shapeCast S256x256 x shapeCasts_S1x256x256_S256x256 : FVec Ideal S256x256 .bf16)
      (shapeCast S256x4096 y shapeCasts_S1x256x4096_S256x4096 : FVec Ideal S256x4096 .bf16) (constant (F := Ideal) S256x4096 .f32 0x00000000#32))

/-- Divided by the row's minimum plus epsilon. -/
private def stRel (v9 : FVec Ideal S256x4096 .f32) : FVec Ideal S256x4096 .f32 :=
  divf v9 (broadcastTo S256x4096
    (addf (shapeCast S256x1 (multiReduction .minimumf [1] S256 v9 0x7F800000#32 reduces_S256x4096_S256 (.inl rfl) rfl) shapeCasts_S256_S256x1)
      (broadcast S256x1 (Scalar.ofBits (F := Ideal) .f32 0x3727C5AC#32)))
    broadcasts_S256x1_S256x4096)

/-- The exponential of twice one minus that. -/
private def stW (v15 : FVec Ideal S256x4096 .f32) : FVec Ideal S256x4096 .f32 :=
  exp (mulf (subf (broadcast S256x4096 (Scalar.ofBits (F := Ideal) .f32 0x3F800000#32)) v15)
    (broadcast S256x4096 (Scalar.ofBits (F := Ideal) .f32 0x40000000#32)))

/-- Divided by the row's sum. -/
private def stCx (v20 : FVec Ideal S256x4096 .f32) : FVec Ideal S256x4096 .f32 :=
  divf v20 (broadcastTo S256x4096
    (shapeCast S256x1 (multiReduction .add [1] S256 v20 0x00000000#32 reduces_S256x4096_S256 (.inl rfl) rfl) shapeCasts_S256_S256x1)
    broadcasts_S256x1_S256x4096)

/-- The scratch row's maximum with the column maxima. -/
private def stOut (v24 : FVec Ideal S256x4096 .f32) (s : Vec Ideal S1x4096 .f32) : FVec Ideal S1x4096 .f32 :=
  shapeCast S1x4096 (maximumf s
    (shapeCast S1x4096 (multiReduction .maximumf [0] S4096 v24 0xFF800000#32 reduces_S256x4096_S4096 (.inl rfl) rfl) shapeCasts_S4096_S1x4096))
    shapeCasts_S1x4096_S1x4096

set_option maxRecDepth 65536 in
private theorem pay3_eq_stages (x : Vec Ideal S1x256x256 .bf16) (y : Vec Ideal S1x256x4096 .bf16) (s : Vec Ideal S1x4096 .f32) :
    k1_pay3 (F := Ideal) x y s = stOut (stCx (stW (stRel (stDist x y)))) s := rfl

private theorem stDist_apply (x : Vec Ideal S1x256x256 .bf16) (y : Vec Ideal S1x256x4096 .bf16) (r : Fin 256) (q : Fin 4096) :
    stDist x y (ix2 r q) = Cert.Spec.dist (fun k => x (ix3 (0 : Fin 1) k r)) (fun k j => y (ix3 (0 : Fin 1) k j)) q := by
  unfold stDist Cert.Spec.dist
  rw [subf_apply, mm_apply]
  refine congrArg₂ (· - ·) rfl (Finset.sum_congr rfl fun c _ => ?_)
  rw [shapeCast_1ab_ab_apply, shapeCast_1ab_ab_apply]

private theorem stRel_apply (v9 : FVec Ideal S256x4096 .f32) (r : Fin 256) (q : Fin 4096) :
    stRel v9 (ix2 r q)
      = Ideal.div (v9 (ix2 r q)) ((Finset.univ : Finset (Fin 4096)).fold min Cert.Spec.wPInf (fun j => v9 (ix2 r j)) + Cert.Spec.wEps) := by
  unfold stRel
  rw [divf_apply, broadcastTo_a1_ab_apply, addf_apply, shapeCast_a_a1_apply, rowmin_apply]
  rfl

private theorem stW_apply (v15 : FVec Ideal S256x4096 .f32) (i : S256x4096.Idx) :
    stW v15 i = Ideal.exp ((Cert.Spec.wOne - v15 i) * Cert.Spec.wTwo) := rfl

private theorem stCx_apply (v20 : FVec Ideal S256x4096 .f32) (r : Fin 256) (q : Fin 4096) :
    stCx v20 (ix2 r q) = Ideal.div (v20 (ix2 r q)) (∑ j : Fin 4096, v20 (ix2 r j)) := by
  unfold stCx
  rw [divf_apply, broadcastTo_a1_ab_apply, shapeCast_a_a1_apply, rowsum_apply]

private theorem stOut_apply (v24 : FVec Ideal S256x4096 .f32) (s : Vec Ideal S1x4096 .f32) (q : Fin 4096) :
    stOut v24 s (ix2 (0 : Fin 1) q)
      = max (s (ix2 (0 : Fin 1) q)) ((Finset.univ : Finset (Fin 256)).fold max Cert.Spec.wNInf (fun r => v24 (ix2 r q))) := by
  unfold stOut
  rw [shapeCast_self, maximumf_apply, shapeCast_a_1a_apply, colmax_apply]

theorem scratch_update_apply (x : Vec Ideal S1x256x256 .bf16) (y : Vec Ideal S1x256x4096 .bf16) (s : Vec Ideal S1x4096 .f32) (q : Fin 4096) :
    (k1_pay3 (F := Ideal) x y s (ix2 (0 : Fin 1) q) : EReal)
      = max (s (ix2 (0 : Fin 1) q)) ((Finset.univ : Finset (Fin 256)).fold max Cert.Spec.wNInf
          (fun r => Cert.Spec.cxK (fun k => x (ix3 (0 : Fin 1) k r)) (fun k j => y (ix3 (0 : Fin 1) k j)) q)) := by
  rw [pay3_eq_stages, stOut_apply]
  refine congrArg (max (s (ix2 (0 : Fin 1) q))) ?_
  refine congrArg (Finset.fold max Cert.Spec.wNInf · (Finset.univ : Finset (Fin 256))) (funext fun r => ?_)
  have hW : ∀ j : Fin 4096, stW (stRel (stDist x y)) (ix2 r j)
      = Cert.Spec.wK (fun k => x (ix3 (0 : Fin 1) k r)) (fun k j => y (ix3 (0 : Fin 1) k j)) j := fun j => by
    rw [stW_apply, stRel_apply]
    simp only [stDist_apply]
    rfl
  rw [stCx_apply, hW q]
  simp only [hW]
  rfl

theorem scratch_reset_apply (q : Fin 4096) : (k1_pay2 (F := Ideal) (ix2 (0 : Fin 1) q) : EReal) = 0 := by
  unfold k1_pay2
  rw [shapeCast_self]
  exact Ideal.ofBits_zero_f32

theorem out_block_apply (v : Vec Ideal S1x4096 .f32) (q : Fin 4096) :
    (k1_pay1 (F := Ideal) v (ix3 (0 : Fin 1) (0 : Fin 1) q) : EReal) = v (ix2 (0 : Fin 1) q) := by
  unfold k1_pay1
  exact shapeCast_ab_1ab_apply v shapeCasts_S1x4096_S1x1x4096 (0 : Fin 1) (0 : Fin 1) q

end Cert.KernelIdeal.Val

end
-- ==== Proof.Val.Arr1.lean ====
/- What the contextual-loss region leaves in its result array, as a function of the two arrays it is entered with: the
   result's block for batch `n` is written back once, after the batch's sixteenth row tile, and then holds the scratch
   row, which has taken the maximum, tile after tile from zero, of the tiles' column maxima of the normalised
   affinities. Since every affinity is nonnegative this is the plain maximum over all 4096 rows: at batch `n` and column
   `q` the result holds the maximum over the rows `p` of the row's quotient at `q`. -/
import proofs.«138638_j39960375722309_1_alg».proof.Proof.KI.Run
import proofs.«138638_j39960375722309_1_alg».proof.Proof.Val.Pay1

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg) (c : Dev nD)

/-! ## Where the three windows' blocks sit -/

/-- The printed index maps, decided over the 64 points of the grid: at point `t` the x window's block is at batch
    `t / 16`, channel block 0, row tile `t % 16`; the y window's and the result window's at batch `t / 16`, block 0, block 0. -/
private theorem idx_facts : ∀ t : Fin cfg1.N,
    win1_0.index t (0 : Fin 3) = t.val / 16 ∧ win1_0.index t (1 : Fin 3) = 0 ∧ win1_0.index t (2 : Fin 3) = t.val % 16
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0 :=
  (by decide +kernel : ∀ t : Fin grid1.N, _)

/-- The x window's block at point `t`, at channel `k` and row `r` of the tile, is the array entered with at batch
    `t / 16`, channel `k`, row `256 · (t % 16) + r`. -/
private theorem xblk_apply (t : Fin cfg1.N) (k : Fin 256) (r : Fin 256) (i : S4x256x4096.Idx)
    (h0 : (i 0).val = t.val / 16) (h1 : (i 1).val = k.val) (h2 : (i 2).val = 256 * (t.val % 16) + r.val) :
    (iblk1 (F := Ideal) (E2 m ρ) c 0 t (ix3 (0 : Fin 1) k r) : EReal) = E2 m ρ c main_v6_0 i := by
  obtain ⟨e0, e1, e2, -, -, -, -, -, -⟩ := idx_facts t
  unfold iblk1
  rw [View.read_apply]
  show E2 m ρ c main_v6_0 _ = E2 m ρ c main_v6_0 i
  congr 1
  funext a
  apply Fin.ext
  match a with
  | ⟨0, _⟩ => show win1_0.index t (0 : Fin 3) * 1 + 1 * (0 : ℕ) = (i 0).val; rw [e0, h0]; omega
  | ⟨1, _⟩ => show win1_0.index t (1 : Fin 3) * 256 + 1 * k.val = (i 1).val; rw [e1, h1]; omega
  | ⟨2, _⟩ => show win1_0.index t (2 : Fin 3) * 256 + 1 * r.val = (i 2).val; rw [e2, h2]; omega

/-- The y window's block at point `t`, at channel `k` and key `j`, is the array entered with at batch `t / 16`. -/
private theorem yblk_apply (t : Fin cfg1.N) (k : Fin 256) (j : Fin 4096) (i : S4x256x4096.Idx)
    (h0 : (i 0).val = t.val / 16) (h1 : (i 1).val = k.val) (h2 : (i 2).val = j.val) :
    (iblk1 (F := Ideal) (E2 m ρ) c 1 t (ix3 (0 : Fin 1) k j) : EReal) = E2 m ρ c main_v6_1 i := by
  obtain ⟨-, -, -, e0, e1, e2, -, -, -⟩ := idx_facts t
  unfold iblk1
  rw [View.read_apply]
  show E2 m ρ c main_v6_1 _ = E2 m ρ c main_v6_1 i
  congr 1
  funext a
  apply Fin.ext
  match a with
  | ⟨0, _⟩ => show win1_1.index t (0 : Fin 3) * 1 + 1 * (0 : ℕ) = (i 0).val; rw [e0, h0]; omega
  | ⟨1, _⟩ => show win1_1.index t (1 : Fin 3) * 256 + 1 * k.val = (i 1).val; rw [e1, h1]; omega
  | ⟨2, _⟩ => show win1_1.index t (2 : Fin 3) * 4096 + 1 * j.val = (i 2).val; rw [e2, h2]; omega

/-! ## The scratch row at a column, point by point -/

/-- The quotient of row `p` of batch `n` at column `q`, as a function of the two arrays the region is entered with. -/
private def rowQ (n : Fin 4) (q : Fin 4096) (p : Fin 4096) : EReal :=
  Cert.Spec.cxK (fun k => (E2 m ρ c main_v6_0 (ix3 n k p) : EReal)) (fun k j => (E2 m ρ c main_v6_1 (ix3 n k j) : EReal)) q

/-- The maximum at column `q` over the 256 rows of the tile met at position `s` (zero past the grid). -/
private def tileMax (s : ℕ) (q : Fin 4096) : EReal :=
  if h : s < cfg1.N then
    (Finset.univ : Finset (Fin 256)).fold max Cert.Spec.wNInf
      (fun r => Cert.Spec.cxK (fun k => (iblk1 (F := Ideal) (E2 m ρ) c 0 ⟨s, h⟩ (ix3 (0 : Fin 1) k r) : EReal))
        (fun k j => (iblk1 (F := Ideal) (E2 m ρ) c 1 ⟨s, h⟩ (ix3 (0 : Fin 1) k j) : EReal)) q)
  else 0

/-- What the scratch row holds at column `q` after position `s` (zero past the grid). -/
private def accN (s : ℕ) (q : Fin 4096) : EReal :=
  if h : s < cfg1.N then (acc1 (F := Ideal) (E2 m ρ) c s h (ix2 (0 : Fin 1) q) : EReal) else 0

private theorem accN_eq (s : ℕ) (h : s < cfg1.N) (q : Fin 4096) :
    accN m ρ c s q = (acc1 (F := Ideal) (E2 m ρ) c s h (ix2 (0 : Fin 1) q) : EReal) := dif_pos h

/-- At a batch's first row tile the scratch row is the maximum of zero with the tile's column maxima. -/
private theorem accN_reset (s : ℕ) (hs : s < cfg1.N) (h : s % 16 = 0) (q : Fin 4096) :
    accN m ρ c s q = max 0 (tileMax m ρ c s q) := by
  rw [accN_eq m ρ c s hs, congrFun (acc1_reset (F := Ideal) (E2 m ρ) c ⟨s, hs⟩ h) (ix2 (0 : Fin 1) q),
    scratch_update_apply, scratch_reset_apply]
  unfold tileMax
  rw [dif_pos hs]

/-- At a later row tile it is the maximum of what the point before left with the tile's column maxima. -/
private theorem accN_step (s : ℕ) (hs : s + 1 < cfg1.N) (h : ¬ (s + 1) % 16 = 0) (q : Fin 4096) :
    accN m ρ c (s + 1) q = max (accN m ρ c s q) (tileMax m ρ c (s + 1) q) := by
  rw [accN_eq m ρ c (s + 1) hs, congrFun (acc1_step (F := Ideal) (E2 m ρ) c ⟨s + 1, hs⟩ h) (ix2 (0 : Fin 1) q),
    scratch_update_apply, accN_eq m ρ c s (Nat.lt_of_succ_lt hs)]
  unfold tileMax
  rw [dif_pos hs]
  rfl

/-- The tile met at point `16 n + j` is rows `256 j … 256 j + 255` of batch `n`. -/
private theorem tile_eq (n : Fin 4) (j : ℕ) (hj : j < 16) (q : Fin 4096) :
    tileMax m ρ c (16 * n.val + j) q = (Finset.univ : Finset (Fin 256)).fold max Cert.Spec.wNInf
      (fun r => rowQ m ρ c n q ⟨256 * j + r.val, by omega⟩) := by
  have hN : cfg1.N = 64 := N_1
  have hs : 16 * n.val + j < cfg1.N := by have := n.isLt; omega
  unfold tileMax
  rw [dif_pos hs]
  refine congrArg (fun f => Finset.fold max Cert.Spec.wNInf f Finset.univ) (funext fun r => ?_)
  unfold rowQ
  refine congrArg₂ (fun a b => Cert.Spec.cxK a b q) ?_ ?_
  · funext k
    refine xblk_apply m ρ c ⟨16 * n.val + j, hs⟩ k r _ ?_ ?_ ?_
    · show n.val = (16 * n.val + j) / 16; omega
    · rfl
    · show 256 * j + r.val = 256 * ((16 * n.val + j) % 16) + r.val; omega
  · funext k jj
    refine yblk_apply m ρ c ⟨16 * n.val + j, hs⟩ k jj _ ?_ ?_ ?_
    · show n.val = (16 * n.val + j) / 16; omega
    · rfl
    · rfl

/-! ## The result array -/

/-- What the result array ends holding: at batch `n` and column `q` the scratch row after the batch's last row tile. -/
private def G7 : S4x1x4096.Idx → EReal := fun i => accN m ρ c (16 * (i 0).val + 15) (i 2)

private theorem G7_apply (i : S4x1x4096.Idx) (s : ℕ) (q : Fin 4096) (h0 : 16 * (i 0).val + 15 = s) (h2 : (i 2).val = q.val) :
    G7 m ρ c i = accN m ρ c s q := by
  unfold G7
  subst h0
  congr 1
  exact Fin.ext h2

/-- What a writing-back point writes back is its block of that function: the point is a batch's last row tile, and its
    output block is the scratch row with a unit axis inserted. -/
private theorem flushed7_eq (t : Fin cfg1.N) (hf : (cfg1.win 2).flush t = true) :
    (dat1 (F := Ideal) (E2 m ρ) c).flushed 2 t = ((cfg1.win 2).blk t).view.read (Elt Ideal) (G7 m ρ c) := by
  have h15 : t.val % 16 = 15 := (flush1_2 t).mp hf
  obtain ⟨-, -, -, -, -, -, e0, e1, e2⟩ := idx_facts t
  show (cfg1.win 2).cut (grid1.coords t) ((dat1 (F := Ideal) (E2 m ρ) c).after 2 t) = _
  rw [after1_2]
  funext y
  obtain ⟨a, b, q, rfl⟩ : ∃ (a : Fin 1) (b : Fin 1) (q : Fin 4096), y = ix3 a b q := ⟨y 0, y 1, y 2, eq_ix3 y⟩
  obtain rfl : a = 0 := Subsingleton.elim _ _
  obtain rfl : b = 0 := Subsingleton.elim _ _
  rw [View.read_apply]
  show (k1_pay1 (F := Ideal) (acc1 (F := Ideal) (E2 m ρ) c t.val t.isLt) (ix3 (0 : Fin 1) (0 : Fin 1) q) : EReal)
    = G7 m ρ c (((cfg1.win 2).blk t).view.emb (ix3 (0 : Fin 1) (0 : Fin 1) q))
  rw [out_block_apply, G7_apply m ρ c _ t.val q ?_ ?_, accN_eq m ρ c t.val t.isLt]
  · show 16 * (win1_2.index t (0 : Fin 3) * 1 + 1 * (0 : ℕ)) + 15 = t.val; rw [e0]; omega
  · show win1_2.index t (2 : Fin 3) * 4096 + 1 * q.val = q.val; rw [e2]; omega

/-- An index of the result array is in point `t`'s block iff each coordinate is in the block's range on its axis. -/
private theorem mem_blk7 (t : Fin cfg1.N) (i : S4x1x4096.Idx) :
    i ∈ ((cfg1.win 2).blk t).view.set ↔ ∀ a : Fin 3, win1_2.index t a * S1x1x4096.size a ≤ (i a).val ∧ (i a).val < win1_2.index t a * S1x1x4096.size a + S1x1x4096.size a := by
  show i ∈ ((View.whole main_v7).slice (win1_2.rect t)).set ↔ _
  rw [View.set_slice_whole, Rect.mem_set_unit]
  exact Iff.rfl

/-- Every index of the result array is in the block of its batch's last point, which writes back. -/
private theorem cover7 (i : S4x1x4096.Idx) :
    ∃ t : Fin cfg1.N, (cfg1.win 2).flush t = true ∧ i ∈ ((cfg1.win 2).blk t).view.set := by
  have hN : cfg1.N = 64 := N_1
  have hi0 : (i 0).val < 4 := (i 0).isLt
  have hi1 : (i 1).val < 1 := (i 1).isLt
  have hi2 : (i 2).val < 4096 := (i 2).isLt
  have ht : 16 * (i 0).val + 15 < cfg1.N := by omega
  obtain ⟨-, -, -, -, -, -, e0, e1, e2⟩ := idx_facts ⟨16 * (i 0).val + 15, ht⟩
  refine ⟨⟨16 * (i 0).val + 15, ht⟩, (flush1_2 _).mpr (by show (16 * (i 0).val + 15) % 16 = 15; omega), ?_⟩
  rw [mem_blk7]
  intro a
  match a with
  | ⟨0, _⟩ =>
    show win1_2.index ⟨16 * (i 0).val + 15, ht⟩ (0 : Fin 3) * 1 ≤ (i 0).val ∧ (i 0).val < win1_2.index ⟨16 * (i 0).val + 15, ht⟩ (0 : Fin 3) * 1 + 1
    rw [e0]; show (16 * (i 0).val + 15) / 16 * 1 ≤ (i 0).val ∧ (i 0).val < (16 * (i 0).val + 15) / 16 * 1 + 1; omega
  | ⟨1, _⟩ =>
    show win1_2.index ⟨16 * (i 0).val + 15, ht⟩ (1 : Fin 3) * 1 ≤ (i 1).val ∧ (i 1).val < win1_2.index ⟨16 * (i 0).val + 15, ht⟩ (1 : Fin 3) * 1 + 1
    rw [e1]; omega
  | ⟨2, _⟩ =>
    show win1_2.index ⟨16 * (i 0).val + 15, ht⟩ (2 : Fin 3) * 4096 ≤ (i 2).val ∧ (i 2).val < win1_2.index ⟨16 * (i 0).val + 15, ht⟩ (2 : Fin 3) * 4096 + 4096
    rw [e2]; omega

/-- So the result array ends holding that function. -/
private theorem final7 : (dat1 (F := Ideal) (E2 m ρ) c).arrAt 2 cfg1.N = G7 m ρ c :=
  (dat1 (F := Ideal) (E2 m ρ) c).arrAt_eq_of_cover 2 (G7 m ρ c) (flushed7_eq m ρ c) (cover7)

theorem colmax_apply (n : Fin 4) (q : Fin 4096) :
    (E3 m ρ c main_v7 (ix3 n (0 : Fin 1) q) : EReal)
      = (Finset.univ : Finset (Fin 4096)).fold max Cert.Spec.wNInf
          (fun p => Cert.Spec.cxK (fun k => (E2 m ρ c main_v6_0 (ix3 n k p) : EReal)) (fun k j => (E2 m ρ c main_v6_1 (ix3 n k j) : EReal)) q) := by
  have hN : cfg1.N = 64 := N_1
  have hn : n.val < 4 := n.isLt
  -- the array is what the write-backs fold to: at this index the scratch row after point 16 n + 15
  refine (congrFun ((B3_arr m ρ c 2).trans (final7 m ρ c)) (ix3 n (0 : Fin 1) q)).trans ?_
  refine (G7_apply m ρ c _ (16 * n.val + 15) q rfl rfl).trans ?_
  -- the scratch row after the batch's tiles, from zero, against the tiles' column maxima
  exact Cert.Spec.fold_tiles (rowQ m ρ c n q) (fun p => Cert.Spec.cxK_nonneg _ _ _)
    (fun j => accN m ρ c (16 * n.val + j) q) (fun j => tileMax m ρ c (16 * n.val + j) q)
    (fun j hj => tile_eq m ρ c n j hj q)
    (accN_reset m ρ c (16 * n.val + 0) (by omega) (by omega) q)
    (fun j hj => accN_step m ρ c (16 * n.val + j) (by omega) (by omega) q)

end Cert.KernelIdeal.Val

end
-- ==== Proof.Val.Ref1.lean ====
/- The reference's normalised features read at an index: at batch `n`, channel `c` and flattened position `s` each is
   `(x - μ_c) / sqrt (Σ_k (x_k - μ_k)²)` of the channel vector at the position (row `s / 64`, column `s % 64`), the
   means those of y over batch and positions. -/
import proofs.«138638_j39960375722309_1_alg».proof.Proof.Gen.ReferenceIdeal.Read
import proofs.«138638_j39960375722309_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.Read

/-- The flattened position `s` of the reshaped array is row `s / 64`, column `s % 64` of the unflattened one. -/
private theorem unflatten_eq (n : Fin 4) (c : Fin 256) (s : Fin 4096) :
    idx_main_v14 (ix3 n c s)
      = ix4 n c (⟨s.val / 64, by omega⟩ : Fin 64) (⟨s.val % 64, by omega⟩ : Fin 64) :=
  funext fun a => Fin.ext (by
    have hn := n.isLt; have hc := c.isLt; have hs := s.isLt
    match a with
    | ⟨0, _⟩ => show ((n.val * 256 + c.val) * 4096 + s.val) / 1048576 = n.val; omega
    | ⟨1, _⟩ => show ((n.val * 256 + c.val) * 4096 + s.val) / 4096 % 256 = c.val; omega
    | ⟨2, _⟩ => show ((n.val * 256 + c.val) * 4096 + s.val) / 64 % 64 = s.val / 64; omega
    | ⟨3, _⟩ => show ((n.val * 256 + c.val) * 4096 + s.val) % 64 = s.val % 64; omega)

/-- The channel mean broadcast to the full array is read at the channel alone. -/
private theorem mean_idx_eq (n : Fin 4) (c : Fin 256) (h w : Fin 64) :
    idx_main_v3 (idx_main_v4 (ix4 n c h w)) = ix1 c :=
  funext fun a => Fin.ext (by
    match a with
    | ⟨0, _⟩ => show ((0 * 256 + c.val) * 1 + 0) * 1 + 0 = c.val; omega)

/-- The norm broadcast over the channels is the sum over the channel axis at the same batch and position. -/
private theorem norm_idx_eq (n : Fin 4) (c : Fin 256) (h w : Fin 64) (k : Fin 256) :
    idx_main_call0_v1 (idx_main_call0_v2 (idx_main_v9 (ix4 n c h w))) k = ix4 n k h w :=
  funext fun a => Fin.ext (by
    match a with
    | ⟨0, _⟩ => rfl
    | ⟨1, _⟩ => rfl
    | ⟨2, _⟩ => rfl
    | ⟨3, _⟩ => rfl)

theorem xn_apply (x0 x1 : (⟨S4x256x64x64, .f32⟩ : BufTy).Contents (Elt Ideal)) (n : Fin 4) (c : Fin 256) (s : Fin 4096) :
    (val_main_v14 (F := Ideal) x0 x1 (ix3 n c s) : EReal)
      = Cert.Spec.nrm (fun k => x0 (ix4 n k (⟨s.val / 64, by omega⟩ : Fin 64) (⟨s.val % 64, by omega⟩ : Fin 64)))
          (fun k => val_main_v2 (F := Ideal) x1 (ix1 k)) c := by
  rw [val_main_v14_apply, unflatten_eq, val_main_v10_apply, val_main_v5_apply, val_main_v4_apply, val_main_v3_apply,
    mean_idx_eq, val_main_v9_apply, val_main_v8_apply, val_main_call0_v2_apply, val_main_call0_v1_apply,
    val_main_call0_cst_apply]
  simp only [norm_idx_eq, val_main_call0_v0_apply, val_main_v5_apply, val_main_v4_apply, val_main_v3_apply, mean_idx_eq]
  simp only [Ideal.hostDivf_def, Ideal.subf_def, Ideal.mulf_def, Ideal.hostUnary_sqrt_def, Ideal.ofBits_def]
  exact Cert.Spec.nrm_zero_add _ _ _

/-- The same three index equations on the y side. -/
private theorem unflatten_eq' (n : Fin 4) (c : Fin 256) (s : Fin 4096) :
    idx_main_v15 (ix3 n c s)
      = ix4 n c (⟨s.val / 64, by omega⟩ : Fin 64) (⟨s.val % 64, by omega⟩ : Fin 64) :=
  funext fun a => Fin.ext (by
    have hn := n.isLt; have hc := c.isLt; have hs := s.isLt
    match a with
    | ⟨0, _⟩ => show ((n.val * 256 + c.val) * 4096 + s.val) / 1048576 = n.val; omega
    | ⟨1, _⟩ => show ((n.val * 256 + c.val) * 4096 + s.val) / 4096 % 256 = c.val; omega
    | ⟨2, _⟩ => show ((n.val * 256 + c.val) * 4096 + s.val) / 64 % 64 = s.val / 64; omega
    | ⟨3, _⟩ => show ((n.val * 256 + c.val) * 4096 + s.val) % 64 = s.val % 64; omega)

private theorem mean_idx_eq' (n : Fin 4) (c : Fin 256) (h w : Fin 64) :
    idx_main_v3 (idx_main_v6 (ix4 n c h w)) = ix1 c :=
  funext fun a => Fin.ext (by
    match a with
    | ⟨0, _⟩ => show ((0 * 256 + c.val) * 1 + 0) * 1 + 0 = c.val; omega)

private theorem norm_idx_eq' (n : Fin 4) (c : Fin 256) (h w : Fin 64) (k : Fin 256) :
    idx_main_call1_v1 (idx_main_call1_v2 (idx_main_v12 (ix4 n c h w))) k = ix4 n k h w :=
  funext fun a => Fin.ext (by
    match a with
    | ⟨0, _⟩ => rfl
    | ⟨1, _⟩ => rfl
    | ⟨2, _⟩ => rfl
    | ⟨3, _⟩ => rfl)

theorem yn_apply (x1 : (⟨S4x256x64x64, .f32⟩ : BufTy).Contents (Elt Ideal)) (n : Fin 4) (c : Fin 256) (s : Fin 4096) :
    (val_main_v15 (F := Ideal) x1 (ix3 n c s) : EReal)
      = Cert.Spec.nrm (fun k => x1 (ix4 n k (⟨s.val / 64, by omega⟩ : Fin 64) (⟨s.val % 64, by omega⟩ : Fin 64)))
          (fun k => val_main_v2 (F := Ideal) x1 (ix1 k)) c := by
  rw [val_main_v15_apply, unflatten_eq', val_main_v13_apply, val_main_v7_apply, val_main_v6_apply, val_main_v3_apply,
    mean_idx_eq', val_main_v12_apply, val_main_v11_apply, val_main_call1_v2_apply, val_main_call1_v1_apply,
    val_main_call1_cst_apply]
  simp only [norm_idx_eq', val_main_call1_v0_apply, val_main_v7_apply, val_main_v6_apply, val_main_v3_apply, mean_idx_eq']
  simp only [Ideal.hostDivf_def, Ideal.subf_def, Ideal.mulf_def, Ideal.hostUnary_sqrt_def, Ideal.ofBits_def]
  exact Cert.Spec.nrm_zero_add _ _ _

end Cert.ReferenceIdeal.RefVal

end
-- ==== Proof.Val.Ref2.lean ====
/- The reference's normalised affinities and their column maxima read at an index: at batch `n`, row `p`, column `q` the
   affinity is the row's quotient (weight over the row's sum of weights) of the normalised features; the column maximum
   at `(n, q)` is the maximum over all 4096 rows, taken from -∞. -/
import proofs.«138638_j39960375722309_1_alg».proof.Proof.Gen.ReferenceIdeal.Read
import proofs.«138638_j39960375722309_1_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.Read

/-- The query position's normalised features at batch `n`, row `p`, by channel. -/
private abbrev rowA (x0 x1 : (⟨S4x256x64x64, .f32⟩ : BufTy).Contents (Elt Ideal)) (n : Fin 4) (p : Fin 4096) : Fin 256 → EReal :=
  fun k => val_main_v14 (F := Ideal) x0 x1 (ix3 n k p)
/-- The key positions' normalised features at batch `n`, by channel and key. -/
private abbrev keyB (x1 : (⟨S4x256x64x64, .f32⟩ : BufTy).Contents (Elt Ideal)) (n : Fin 4) : Fin 256 → Fin 4096 → EReal :=
  fun k j => val_main_v15 (F := Ideal) x1 (ix3 n k j)

/-- The cosine distance of row `p` to key `k`: one minus the inner product over the channels. -/
private theorem v18_apply (x0 x1 : (⟨S4x256x64x64, .f32⟩ : BufTy).Contents (Elt Ideal)) (n : Fin 4) (p k : Fin 4096) :
    (val_main_v18 (F := Ideal) x0 x1 (ix3 n p k) : EReal) = Cert.Spec.dist (rowA x0 x1 n p) (keyB x1 n) k := by
  have el : ∀ c : Fin 256, lidx_main_v16 (ix3 n p k) c = ix3 n c p := fun c =>
    funext fun a => Fin.ext (by match a with | ⟨0, _⟩ => rfl | ⟨1, _⟩ => rfl | ⟨2, _⟩ => rfl)
  have er : ∀ c : Fin 256, ridx_main_v16 (ix3 n p k) c = ix3 n c k := fun c =>
    funext fun a => Fin.ext (by match a with | ⟨0, _⟩ => rfl | ⟨1, _⟩ => rfl | ⟨2, _⟩ => rfl)
  rw [val_main_v18_apply, val_main_v17_apply, val_main_cst_1_apply, val_main_v16_apply]
  simp only [el, er, Ideal.subf_def, Ideal.ofBits_def]
  rfl

/-- A batch-and-row index with the key coordinate `k` put back is (batch, row, key). -/
private theorem lift_d2 (h : S4x4096x4096.Reduces [2] S4x4096) (n : Fin 4) (p : Fin 4096) (k : Fin (S4x4096x4096.size 2)) :
    h.lift (ix2 n p) k = ix3 n p (⟨k.val, k.isLt⟩ : Fin 4096) := by
  funext a; apply Fin.ext
  match a with
  | ⟨0, _⟩ => rfl
  | ⟨1, _⟩ => rfl
  | ⟨2, _⟩ => exact (h.lift_val _ _ _).trans (dif_pos rfl)

/-- Reading a rank-3 array along the key axis at (batch, row) is reading it at (batch, row, key). -/
private theorem comp_lift_d2 (y : (⟨S4x4096x4096, .f32⟩ : BufTy).Contents (Elt Ideal)) (h : S4x4096x4096.Reduces [2] S4x4096) (n : Fin 4) (p : Fin 4096) :
   ((y : S4x4096x4096.Idx → Ideal .f32) ∘ h.lift (ix2 n p)) = fun k : Fin 4096 => y (ix3 n p k) :=
  funext fun k => congrArg y (lift_d2 h n p k)

/-- The row's minimum distance over the 4096 keys, taken from +∞. -/
private theorem v19_apply (x0 x1 : (⟨S4x256x64x64, .f32⟩ : BufTy).Contents (Elt Ideal)) (n : Fin 4) (p : Fin 4096) :
    (val_main_v19 (F := Ideal) x0 x1 (ix2 n p) : EReal) = Cert.Spec.dmin (rowA x0 x1 n p) (keyB x1 n) := by
  have hd : (fun k : Fin 4096 => (val_main_v18 (F := Ideal) x0 x1 (ix3 n p k) : EReal)) = Cert.Spec.dist (rowA x0 x1 n p) (keyB x1 n) :=
    funext fun k => v18_apply x0 x1 n p k
  unfold val_main_v19 Cert.Spec.dmin
  rw [← hd]
  generalize val_main_v18 (F := Ideal) x0 x1 = y
  have h : S4x4096x4096.Reduces [2] S4x4096 := by decide
  refine (Host.reduce_eq_fold_single (α := Ideal .f32) FloatOps.minimumf (y : S4x4096x4096.Idx → Ideal .f32) (val_main_cst_2 (F := Ideal)) reducesTo_S4x4096x4096_S4x4096_d2 h h_S_ (ix2 n p)).trans ?_
  exact congrArg (fun f => Finset.fold min Cert.Spec.wPInf f (Finset.univ : Finset (Fin 4096))) (comp_lift_d2 y h n p)

/-- The weight of key `k` in row `p`: the exponential of (one minus the relative distance) over one half. -/
private theorem v29_apply (x0 x1 : (⟨S4x256x64x64, .f32⟩ : BufTy).Contents (Elt Ideal)) (n : Fin 4) (p k : Fin 4096) :
    (val_main_v29 (F := Ideal) x0 x1 (ix3 n p k) : EReal) = Cert.Spec.wR (rowA x0 x1 n p) (keyB x1 n) k := by
  have e23 : idx_main_v20 (idx_main_v23 (ix3 n p k)) = ix2 n p :=
    funext fun a => Fin.ext (by match a with | ⟨0, _⟩ => rfl | ⟨1, _⟩ => rfl)
  rw [val_main_v29_apply, val_main_v28_apply, val_main_v27_apply, val_main_cst_5_apply, val_main_v26_apply, val_main_v25_apply,
    val_main_cst_4_apply, val_main_v24_apply, val_main_v23_apply, val_main_v22_apply, val_main_v21_apply, val_main_cst_3_apply,
    val_main_v20_apply, e23, v19_apply, v18_apply]
  simp only [Ideal.subf_def, Ideal.addf_def, Ideal.hostDivf_def, Ideal.hostUnary_exp_def, Ideal.ofBits_def]
  rfl

/-- The row's sum of weights, taken from the zero word. -/
private theorem v30_apply (x0 x1 : (⟨S4x256x64x64, .f32⟩ : BufTy).Contents (Elt Ideal)) (n : Fin 4) (p : Fin 4096) :
    (val_main_v30 (F := Ideal) x0 x1 (ix2 n p) : EReal)
      = Cert.Spec.wZero + ∑ j : Fin 4096, Cert.Spec.wR (rowA x0 x1 n p) (keyB x1 n) j := by
  have e30 : ∀ j : Fin 4096, idx_main_v30 (ix2 n p) j = ix3 n p j := fun j =>
    funext fun a => Fin.ext (by match a with | ⟨0, _⟩ => rfl | ⟨1, _⟩ => rfl | ⟨2, _⟩ => rfl)
  rw [val_main_v30_apply, val_main_cst_6_apply]
  simp only [e30, v29_apply, Ideal.ofBits_def]

theorem cx_apply (x0 x1 : (⟨S4x256x64x64, .f32⟩ : BufTy).Contents (Elt Ideal)) (n : Fin 4) (p q : Fin 4096) :
    (val_main_v33 (F := Ideal) x0 x1 (ix3 n p q) : EReal)
      = Cert.Spec.cxR (fun k => val_main_v14 (F := Ideal) x0 x1 (ix3 n k p)) (fun k j => val_main_v15 (F := Ideal) x1 (ix3 n k j)) q := by
  have e32 : idx_main_v31 (idx_main_v32 (ix3 n p q)) = ix2 n p :=
    funext fun a => Fin.ext (by match a with | ⟨0, _⟩ => rfl | ⟨1, _⟩ => rfl)
  rw [val_main_v33_apply, val_main_v32_apply, val_main_v31_apply, e32, v30_apply, v29_apply]
  simp only [Ideal.hostDivf_def]
  rfl

theorem colmax_apply (x0 x1 : (⟨S4x256x64x64, .f32⟩ : BufTy).Contents (Elt Ideal)) (n : Fin 4) (q : Fin 4096) :
    (val_main_v34 (F := Ideal) x0 x1 (ix2 n q) : EReal)
      = (Finset.univ : Finset (Fin 4096)).fold max Cert.Spec.wNInf (fun p => (val_main_v33 (F := Ideal) x0 x1 (ix3 n p q) : EReal)) := by
  unfold val_main_v34
  generalize val_main_v33 (F := Ideal) x0 x1 = y
  have h : S4x4096x4096.Reduces [1] S4x4096 := by decide
  refine (Host.reduce_eq_fold_single (α := Ideal .f32) FloatOps.maximumf (y : S4x4096x4096.Idx → Ideal .f32) (val_main_cst_7 (F := Ideal)) reducesTo_S4x4096x4096_S4x4096_d1 h h_S_ (ix2 n q)).trans ?_
  have hf : ((y : S4x4096x4096.Idx → Ideal .f32) ∘ h.lift (ix2 n q)) = fun p : Fin 4096 => y (ix3 n p q) :=
    funext fun p => congrArg y (funext fun a => Fin.ext (by match a with | ⟨0, _⟩ => rfl | ⟨1, _⟩ => rfl | ⟨2, _⟩ => rfl))
  exact congrArg (fun f => Finset.fold max Cert.Spec.wNInf f (Finset.univ : Finset (Fin 4096))) hf

end Cert.ReferenceIdeal.RefVal

end
-- ==== Proof.Val.Final.lean ====
/- The two programs' results are one function of the arguments. The kernel program's closing host operations (reshape,
   the mean over the columns, plus ε, minus the logarithm, the mean over the batches) are the reference's last
   operations applied to the column maxima; and the column maxima agree index by index: both are the maximum over the
   rows of the row's quotient of the same normalised features (the kernel's weight multiplies by two where the
   reference's divides by one half). -/
import proofs.«138638_j39960375722309_1_alg».proof.Proof.Val.Arr0
import proofs.«138638_j39960375722309_1_alg».proof.Proof.Val.Arr1
import proofs.«138638_j39960375722309_1_alg».proof.Proof.Val.Ref1
import proofs.«138638_j39960375722309_1_alg».proof.Proof.Val.Ref2
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg) (c : Dev nD)

/-- The column maxima the contextual-loss region leaves are the reference's: the same fold of `max` over the rows, of
    quotients that agree row by row because the normalised features and the channel means do. -/
theorem colmax_eq (n : Fin 4) (q : Fin 4096) :
    (E3 m ρ c main_v7 (ix3 n (0 : Fin 1) q) : EReal)
      = Cert.ReferenceIdeal.Read.val_main_v34 (F := Ideal) (m ((c.tc : Thread nD τ).loc main_arg0)) (m ((c.tc : Thread nD τ).loc main_arg1)) (ix2 n q) := by
  rw [colmax_apply m ρ c n q, Cert.ReferenceIdeal.RefVal.colmax_apply]
  refine congrArg (fun f => Finset.fold max Cert.Spec.wNInf f Finset.univ) (funext fun p => ?_)
  rw [Cert.ReferenceIdeal.RefVal.cx_apply, ← Cert.Spec.cxK_eq_cxR]
  have hx : (fun k => (E2 m ρ c main_v6_0 (ix3 n k p) : EReal))
      = fun k => (Cert.ReferenceIdeal.Read.val_main_v14 (F := Ideal) (m ((c.tc : Thread nD τ).loc main_arg0)) (m ((c.tc : Thread nD τ).loc main_arg1)) (ix3 n k p) : EReal) :=
    funext fun k => by
      rw [xn_apply m ρ c n k p, Cert.ReferenceIdeal.RefVal.xn_apply]
      exact congrArg (fun mu => Cert.Spec.nrm _ mu k) (funext fun k' => means_apply m ρ c k')
  have hy : (fun k j => (E2 m ρ c main_v6_1 (ix3 n k j) : EReal))
      = fun k j => (Cert.ReferenceIdeal.Read.val_main_v15 (F := Ideal) (m ((c.tc : Thread nD τ).loc main_arg1)) (ix3 n k j) : EReal) :=
    funext fun k => funext fun j => by
      rw [yn_apply m ρ c n k j, Cert.ReferenceIdeal.RefVal.yn_apply]
      exact congrArg (fun mu => Cert.Spec.nrm _ mu k) (funext fun k' => means_apply m ρ c k')
  rw [hx, hy]

/-- The closing host operations both programs apply to the column maxima: the mean over the columns, plus ε, the
    logarithm negated, the mean over the batches. -/
def closing (z : FVec Ideal S4x4096 .f32) : FVec Ideal S_ .f32 :=
  Host.divf (F := Ideal)
    (Host.reduceAdd (F := Ideal)
      (Host.negf (F := Ideal)
        (Host.log (F := Ideal)
          (addf (F := Ideal)
            (Host.divf (F := Ideal) (Host.reduceAdd (F := Ideal) z (constant (F := Ideal) S_ .f32 0x00000000#32) reducesTo_S4x4096_S4_d1 h_S_)
              (broadcastInDim S4 ![] bcast_S_S4 (constant (F := Ideal) S_ .f32 0x45800000#32)))
            (broadcastInDim S4 ![] bcast_S_S4 (constant (F := Ideal) S_ .f32 0x3727C5AC#32)))))
      (constant (F := Ideal) S_ .f32 0x00000000#32) reducesTo_S4_S_d0 h_S_)
    (constant (F := Ideal) S_ .f32 0x40800000#32)

/-- The reference's result is the closing operations of its column maxima. -/
theorem ref_closing (x0 x1 : (⟨Cert.ReferenceIdeal.S4x256x64x64, .f32⟩ : BufTy).Contents (Elt Ideal)) :
    Cert.ReferenceIdeal.Read.val_main_v43 (F := Ideal) x0 x1 = closing (Cert.ReferenceIdeal.Read.val_main_v34 (F := Ideal) x0 x1) := rfl

/-- The program's result is the reference's function of the arguments: the closing operations of column maxima that
    agree index by index (the result array's unit axis dropped by the reshape). -/
theorem result_eq :
    B4 m ρ c (Proc.devRef .tc main_v17)
      = Cert.ReferenceIdeal.Read.val_main_v43 (F := Ideal) (m ((c.tc : Thread nD τ).loc main_arg0)) (m ((c.tc : Thread nD τ).loc main_arg1)) := by
  rw [ref_closing]
  show StableHlo.after hostOps2 (B3 m ρ c) (Proc.devRef .tc main_v17) = _
  after_results
  refine congrArg closing (funext fun i => ?_)
  obtain ⟨n, q, rfl⟩ : ∃ (n : Fin 4) (q : Fin 4096), i = ix2 n q := ⟨i 0, i 1, eq_ix2 i⟩
  refine Eq.trans ?_ (colmax_eq m ρ c n q)
  exact shapeCast_apply (B3 m ρ c (Proc.devRef .tc main_v7)) shapeCasts_S4x1x4096_S4x4096 (ix2 n q) (ix3 n (0 : Fin 1) q) (by
    show ((⟨3, ![4, 1, 4096]⟩ : Shape).rowMajor (ix3 n (0 : Fin 1) q)).val = ((⟨2, ![4, 4096]⟩ : Shape).rowMajor (ix2 n q)).val
    rw [Shape.rowMajor_val_three, Shape.rowMajor_val_two]
    show (n.val * 1 + 0) * 4096 + q.val = n.val * 4096 + q.val
    omega)

end Cert.KernelIdeal.Val

end
-- ==== Proof.lean ====
/- The certificate's claims assembled. Each kernel program's frame is its run read at the two argument arrays (the run
   says what every unscoped buffer holds at the end, and no item of @main writes an argument). The reference has no
   kernel: its frame is its run with the result dropped. The idealization rewrote nothing. And at the ideal instance
   the kernel program's result buffer ends at the reference's function of the arguments (the normalised features, the
   rows' quotients and their column maxima agree index by index; the closing host operations are the same), which is
   what the reference's run leaves in its own result buffer from arguments that agree. -/
import proofs.«138638_j39960375722309_1_alg».proof.Defs
import proofs.«138638_j39960375722309_1_alg».proof.Proof.Gen.Kernel
import proofs.«138638_j39960375722309_1_alg».proof.Proof.Gen.KernelIdeal
import proofs.«138638_j39960375722309_1_alg».proof.Proof.Gen.ReferenceIdeal
import proofs.«138638_j39960375722309_1_alg».proof.Proof.Gen.Pre_finite_inputs
import proofs.«138638_j39960375722309_1_alg».proof.Proof.K.Run
import proofs.«138638_j39960375722309_1_alg».proof.Proof.KI.Run
import proofs.«138638_j39960375722309_1_alg».proof.Proof.Val.Final
import proofs.«138638_j39960375722309_1_alg».proof.Proof.Gen.ReferenceIdeal.Run
import proofs.«138638_j39960375722309_1_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.B4_main_arg0 m ρ c),
     (h c _ (Cert.Kernel.Hand.mem_uc Cert.Kernel.main_arg1 (by decide))).trans (Cert.Kernel.Hand.B4_main_arg1 m ρ c)⟩)
    (Cert.Kernel.Hand.run_all (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.B4_main_arg0 m ρ c),
     (h c _ (Cert.KernelIdeal.Hand.mem_uc Cert.KernelIdeal.main_arg1 (by decide))).trans (Cert.KernelIdeal.Hand.B4_main_arg1 m ρ c)⟩)
    (Cert.KernelIdeal.Hand.run_all (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c =>
      ⟨(h c _ (Cert.KernelIdeal.Hand.mem_uc Cert.KernelIdeal.main_v17 (by decide))).trans (Cert.KernelIdeal.Val.result_eq m ρ c),
       (h c _ (Cert.KernelIdeal.Hand.mem_uc Cert.KernelIdeal.main_arg0 (by decide))).trans (Cert.KernelIdeal.Hand.B4_main_arg0 m ρ c),
       (h c _ (Cert.KernelIdeal.Hand.mem_uc Cert.KernelIdeal.main_arg1 (by decide))).trans (Cert.KernelIdeal.Hand.B4_main_arg1 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
